-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v34)) (v1 : (c : Dev Cert.KernelIdeal.nD) → Buf (Elt Ideal) ((c.tc : Thread Cert.KernelIdeal.nD Cert.KernelIdeal.τ).loc Cert.KernelIdeal.main_v33_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_v33_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512 : Shape := ⟨2, ![4, 512]⟩
abbrev S4x1x1024 : Shape := ⟨3, ![4, 1, 1024]⟩
abbrev S250000x256 : Shape := ⟨2, ![250000, 256]⟩
abbrev S1000x256 : Shape := ⟨2, ![1000, 256]⟩
abbrev S_ : Shape := ⟨0, ![]⟩

class Facts : Prop where
  bcast_S_S250000x256 : S_.BroadcastsInDim S250000x256 (![] : Fin 0 → Fin S250000x256.rank)
  reducesTo_S250000x256_S_d0_1 : S250000x256.ReducesTo [0, 1] S_
  h_S_ : 0 < S_.numel
  bcast_S_S1000x256 : S_.BroadcastsInDim S1000x256 (![] : Fin 0 → Fin S1000x256.rank)
  reducesTo_S1000x256_S_d0_1 : S1000x256.ReducesTo [0, 1] S_

variable [Facts]

def fn {F : FTy → Type} [FloatOps F] (main_arg0 : IVec S4x512 32) (main_arg1 : IVec S4x512 32) (main_arg2 : IVec S4x512 32) (main_arg3 : IVec S4x1x1024 32) (main_arg4 : FVec F S250000x256 .f32) (main_arg5 : FVec F S1000x256 .f32) : IVec S_ 1 :=
  let main_v0 : FVec F S250000x256 .f32 := Host.absf main_arg4
  let main_cst : FVec F S_ .f32 := constant S_ .f32 0x7F800000#32
  let main_v1 : FVec F S250000x256 .f32 := broadcastInDim S250000x256 ![] bcast_S_S250000x256 main_cst
  let main_v2 : IVec S250000x256 1 := cmpf .olt main_v0 main_v1
  let main_c : IVec S_ 1 := constantI S_ 1 1#1
  let main_v3 : IVec S_ 1 := (fun x v => Host.reduce IntOp.andi x v reducesTo_S250000x256_S_d0_1 h_S_) main_v2 main_c
  let main_v4 : FVec F S1000x256 .f32 := Host.absf main_arg5
  let main_cst_0 : FVec F S_ .f32 := constant S_ .f32 0x7F800000#32
  let main_v5 : FVec F S1000x256 .f32 := broadcastInDim S1000x256 ![] bcast_S_S1000x256 main_cst_0
  let main_v6 : IVec S1000x256 1 := cmpf .olt main_v4 main_v5
  let main_c_1 : IVec S_ 1 := constantI S_ 1 1#1
  let main_v7 : IVec S_ 1 := (fun x v => Host.reduce IntOp.andi x v reducesTo_S1000x256_S_d0_1 h_S_) main_v6 main_c_1
  let main_v8 : IVec S_ 1 := andi main_v3 main_v7
  main_v8
-- ==== Kernel.lean ====
abbrev S4x512 : Shape := ⟨2, ![4, 512]⟩
abbrev S4x1x1024 : Shape := ⟨3, ![4, 1, 1024]⟩
abbrev S250000x256 : Shape := ⟨2, ![250000, 256]⟩
abbrev S1000x256 : Shape := ⟨2, ![1000, 256]⟩
abbrev S2048 : Shape := ⟨1, ![2048]⟩
abbrev S1x1x1024 : Shape := ⟨3, ![1, 1, 1024]⟩
abbrev S1024 : Shape := ⟨1, ![1024]⟩
abbrev S_ : Shape := ⟨0, ![]⟩
abbrev S2048x1 : Shape := ⟨2, ![2048, 1]⟩
abbrev S2048x256 : Shape := ⟨2, ![2048, 256]⟩
abbrev S1024x1 : Shape := ⟨2, ![1024, 1]⟩
abbrev S1024x256 : Shape := ⟨2, ![1024, 256]⟩
abbrev S2048x4096 : Shape := ⟨2, ![2048, 4096]⟩
abbrev S256x256 : Shape := ⟨2, ![256, 256]⟩
abbrev S256x1 : Shape := ⟨2, ![256, 1]⟩
abbrev S256x4096 : Shape := ⟨2, ![256, 4096]⟩
abbrev S256 : Shape := ⟨1, ![256]⟩
abbrev S256x1024 : Shape := ⟨2, ![256, 1024]⟩

abbrev nBuf : Space → Nat
  | .hbm => 50
  | .vmem => 11
  | .smem => 0
  | _ => 0

abbrev bufTy : (tb : Table) → Fin (tcTables nBuf tb) → BufTy
  | .hbm, ⟨0, _⟩ => ⟨S4x512, .i32⟩
  | .hbm, ⟨1, _⟩ => ⟨S4x512, .i32⟩
  | .hbm, ⟨2, _⟩ => ⟨S4x512, .i32⟩
  | .hbm, ⟨3, _⟩ => ⟨S4x1x1024, .i32⟩
  | .hbm, ⟨4, _⟩ => ⟨S250000x256, .f32⟩
  | .hbm, ⟨5, _⟩ => ⟨S1000x256, .f32⟩
  | .hbm, ⟨6, _⟩ => ⟨S2048, .i32⟩
  | .hbm, ⟨7, _⟩ => ⟨S2048, .i32⟩
  | .hbm, ⟨8, _⟩ => ⟨S2048, .i32⟩
  | .hbm, ⟨9, _⟩ => ⟨S1x1x1024, .i32⟩
  | .hbm, ⟨10, _⟩ => ⟨S1024, .i32⟩
  | .hbm, ⟨11, _⟩ => ⟨S_, .i32⟩
  | .hbm, ⟨12, _⟩ => ⟨S2048, .i32⟩
  | .hbm, ⟨13, _⟩ => ⟨S2048, .i1⟩
  | .hbm, ⟨14, _⟩ => ⟨S_, .i32⟩
  | .hbm, ⟨15, _⟩ => ⟨S2048, .i32⟩
  | .hbm, ⟨16, _⟩ => ⟨S2048, .i32⟩
  | .hbm, ⟨17, _⟩ => ⟨S2048, .i32⟩
  | .hbm, ⟨18, _⟩ => ⟨S2048x1, .i32⟩
  | .hbm, ⟨19, _⟩ => ⟨S2048x256, .f32⟩
  | .hbm, ⟨20, _⟩ => ⟨S_, .i32⟩
  | .hbm, ⟨21, _⟩ => ⟨S2048, .i32⟩
  | .hbm, ⟨22, _⟩ => ⟨S2048, .i1⟩
  | .hbm, ⟨23, _⟩ => ⟨S_, .i32⟩
  | .hbm, ⟨24, _⟩ => ⟨S2048, .i32⟩
  | .hbm, ⟨25, _⟩ => ⟨S2048, .i32⟩
  | .hbm, ⟨26, _⟩ => ⟨S2048, .i32⟩
  | .hbm, ⟨27, _⟩ => ⟨S2048x1, .i32⟩
  | .hbm, ⟨28, _⟩ => ⟨S2048x256, .f32⟩
  | .hbm, ⟨29, _⟩ => ⟨S_, .i32⟩
  | .hbm, ⟨30, _⟩ => ⟨S1024, .i32⟩
  | .hbm, ⟨31, _⟩ => ⟨S1024, .i1⟩
  | .hbm, ⟨32, _⟩ => ⟨S_, .i32⟩
  | .hbm, ⟨33, _⟩ => ⟨S1024, .i32⟩
  | .hbm, ⟨34, _⟩ => ⟨S1024, .i32⟩
  | .hbm, ⟨35, _⟩ => ⟨S1024, .i32⟩
  | .hbm, ⟨36, _⟩ => ⟨S1024x1, .i32⟩
  | .hbm, ⟨37, _⟩ => ⟨S1024x256, .f32⟩
  | .hbm, ⟨38, _⟩ => ⟨S_, .i32⟩
  | .hbm, ⟨39, _⟩ => ⟨S2048, .i32⟩
  | .hbm, ⟨40, _⟩ => ⟨S2048, .i1⟩
  | .hbm, ⟨41, _⟩ => ⟨S_, .i32⟩
  | .hbm, ⟨42, _⟩ => ⟨S2048, .i32⟩
  | .hbm, ⟨43, _⟩ => ⟨S2048, .i32⟩
  | .hbm, ⟨44, _⟩ => ⟨S2048, .i32⟩
  | .hbm, ⟨45, _⟩ => ⟨S2048x1, .i32⟩
  | .hbm, ⟨46, _⟩ => ⟨S2048x256, .f32⟩
  | .hbm, ⟨47, _⟩ => ⟨S2048x1, .f32⟩
  | .hbm, ⟨48, _⟩ => ⟨S2048x4096, .f32⟩
  | .hbm, ⟨49, _⟩ => ⟨S2048, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S1024x256, .f32⟩
  | .local _ .vmem, ⟨7, _⟩ => ⟨S256x1, .f32⟩
  | .local _ .vmem, ⟨8, _⟩ => ⟨S256x1, .f32⟩
  | .local _ .vmem, ⟨9, _⟩ => ⟨S256x4096, .f32⟩
  | .local _ .vmem, ⟨10, _⟩ => ⟨S256x4096, .f32⟩
  | _, _ => ⟨S4x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_v19 : Ref sig .tc := ⟨.hbm, 30, rfl⟩
abbrev main_v20 : Ref sig .tc := ⟨.hbm, 31, rfl⟩
abbrev main_c_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_5 : Ref sig .tc := ⟨.hbm, 38, rfl⟩
abbrev main_v26 : Ref sig .tc := ⟨.hbm, 39, rfl⟩
abbrev main_v27 : Ref sig .tc := ⟨.hbm, 40, rfl⟩
abbrev main_c_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33_0 : Ref sig .tc := ⟨.hbm, 47, rfl⟩
abbrev main_v33_1 : Ref sig .tc := ⟨.hbm, 48, rfl⟩
abbrev main_v34 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S4x512_S2048 : S4x512.ShapeCasts S2048
  slices_S4x1x1024_S1x1x1024_0_0_0 : S4x1x1024.Slices ![0, 0, 0] S1x1x1024
  shapeCasts_S1x1x1024_S1024 : S1x1x1024.ShapeCasts S1024
  bcast_S_S2048 : S_.BroadcastsInDim S2048 (![] : Fin 0 → Fin S2048.rank)
  bcast_S2048_S2048x1_0 : S2048.BroadcastsInDim S2048x1 (![0] : Fin 1 → Fin S2048x1.rank)
  bcast_S_S1024 : S_.BroadcastsInDim S1024 (![] : Fin 0 → Fin S1024.rank)
  bcast_S1024_S1024x1_0 : S1024.BroadcastsInDim S1024x1 (![0] : Fin 1 → Fin S1024x1.rank)
  inb_S256x256_S256x256_0_0 : ∀ a, (![0, 0] : Fin 2 → Nat) a + S256x256.size a ≤ S256x256.size a
  h_S256x256 : 0 < S256x256.numel
  shapeCasts_S256x256_S256x256 : S256x256.ShapeCasts S256x256
  reduces_S256x256_S256 : S256x256.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  concatenates_S256x1024_S256x1024_S256x1024_S256x1024_S256x4096_d1 : Shape.Concatenates [S256x1024, S256x1024, S256x1024, S256x1024] S256x4096 1
  inb_S256x4096_S256x4096_0_0 : ∀ a, (![0, 0] : Fin 2 → Nat) a + S256x4096.size a ≤ S256x4096.size a
  h_S256x4096 : 0 < S256x4096.numel
  shapeCasts_S2048x1_S2048 : S2048x1.ShapeCasts S2048
  gather_S250000x256_S2048x1_S2048x256_1_0_n_n_0_1_1256_wf : GatherDims.WF S250000x256 S2048x1 S2048x256 [1] [0] [] [0] [] 1 ![1, 256]
  gather_S250000x256_S1024x1_S1024x256_1_0_n_n_0_1_1256_wf : GatherDims.WF S250000x256 S1024x1 S1024x256 [1] [0] [] [0] [] 1 ![1, 256]
  gather_S1000x256_S2048x1_S2048x256_1_0_n_n_0_1_1256_wf : GatherDims.WF S1000x256 S2048x1 S2048x256 [1] [0] [] [0] [] 1 ![1, 256]
  dot_S256x256_S1024x256_S256x1024_1_1_0_0_n_n_wf : DotDims.WF S256x256 S1024x256 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S2048x256.size a
  hwx0_0 : ∀ i : grid0.Coords, EltTy.bits .f32 = 32 ∨ (Rect.block (s := S2048x256) S256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S2048x256.size a
  hwx0_1 : ∀ i : grid0.Coords, EltTy.bits .f32 = 32 ∨ (Rect.block (s := S2048x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S2048x256.size a
  hwx0_2 : ∀ i : grid0.Coords, EltTy.bits .f32 = 32 ∨ (Rect.block (s := S2048x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S1024x256.size a
  hwx0_3 : ∀ i : grid0.Coords, EltTy.bits .f32 = 32 ∨ (Rect.block (s := S1024x256) S1024x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S2048x1.size a
  hwx0_4 : ∀ i : grid0.Coords, EltTy.bits .f32 = 32 ∨ (Rect.block (s := S2048x1) S256x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x4096.size a ≤ S2048x4096.size a
  hwx0_5 : ∀ i : grid0.Coords, EltTy.bits .f32 = 32 ∨ (Rect.block (s := S2048x4096) S256x4096.size (cc0_transform_5 i) (hinb0_5 i)).WholeWords (EltTy.packing .f32)

variable [Facts₀]

def gather_S250000x256_S2048x1_S2048x256_1_0_n_n_0_1_1256 : GatherDims S250000x256 S2048x1 S2048x256 where
  offsetDims := [1]
  collapsedSliceDims := [0]
  operandBatchingDims := []
  startIndicesBatchingDims := []
  startIndexMap := [0]
  indexVectorDim := 1
  sliceSizes := ![1, 256]
  wf := gather_S250000x256_S2048x1_S2048x256_1_0_n_n_0_1_1256_wf
def gather_S250000x256_S1024x1_S1024x256_1_0_n_n_0_1_1256 : GatherDims S250000x256 S1024x1 S1024x256 where
  offsetDims := [1]
  collapsedSliceDims := [0]
  operandBatchingDims := []
  startIndicesBatchingDims := []
  startIndexMap := [0]
  indexVectorDim := 1
  sliceSizes := ![1, 256]
  wf := gather_S250000x256_S1024x1_S1024x256_1_0_n_n_0_1_1256_wf
def gather_S1000x256_S2048x1_S2048x256_1_0_n_n_0_1_1256 : GatherDims S1000x256 S2048x1 S2048x256 where
  offsetDims := [1]
  collapsedSliceDims := [0]
  operandBatchingDims := []
  startIndicesBatchingDims := []
  startIndexMap := [0]
  indexVectorDim := 1
  sliceSizes := ![1, 256]
  wf := gather_S1000x256_S2048x1_S2048x256_1_0_n_n_0_1_1256_wf
def dot_S256x256_S1024x256_S256x1024_1_1_0_0_n_n : DotDims S256x256 S1024x256 S256x1024 where
  lhsContracting := [1]
  rhsContracting := [1]
  lhsNonContracting := [0]
  rhsNonContracting := [0]
  lhsBatch := []
  rhsBatch := []
  wf := dot_S256x256_S1024x256_S256x1024_1_1_0_0_n_n_wf

abbrev win0_0 : Pipeline.Window sig grid0 :=
  Pipeline.Window.ofSpec (Memref.whole main_v11) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S256x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1024x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v33_0) S256x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v33_1) S256x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x512 : Shape := ⟨2, ![4, 512]⟩
abbrev S4x1x1024 : Shape := ⟨3, ![4, 1, 1024]⟩
abbrev S250000x256 : Shape := ⟨2, ![250000, 256]⟩
abbrev S1000x256 : Shape := ⟨2, ![1000, 256]⟩
abbrev S4x1024 : Shape := ⟨2, ![4, 1024]⟩
abbrev S4x2048 : Shape := ⟨2, ![4, 2048]⟩
abbrev S_ : Shape := ⟨0, ![]⟩
abbrev S4x2048x1 : Shape := ⟨3, ![4, 2048, 1]⟩
abbrev S4x2048x256 : Shape := ⟨3, ![4, 2048, 256]⟩
abbrev S4x512x256 : Shape := ⟨3, ![4, 512, 256]⟩
abbrev S4x1024x256 : Shape := ⟨3, ![4, 1024, 256]⟩
abbrev S4x1x1024x256 : Shape := ⟨4, ![4, 1, 1024, 256]⟩
abbrev S1x1x1024x256 : Shape := ⟨4, ![1, 1, 1024, 256]⟩
abbrev S1x1024x256 : Shape := ⟨3, ![1, 1024, 256]⟩
abbrev S4x4x512 : Shape := ⟨3, ![4, 4, 512]⟩
abbrev S4x4x512x256 : Shape := ⟨4, ![4, 4, 512, 256]⟩
abbrev S8192x256 : Shape := ⟨2, ![8192, 256]⟩
abbrev S8192 : Shape := ⟨1, ![8192]⟩
abbrev S8192x1 : Shape := ⟨2, ![8192, 1]⟩
abbrev S1024x256 : Shape := ⟨2, ![1024, 256]⟩
abbrev S8192x1024 : Shape := ⟨2, ![8192, 1024]⟩
abbrev S4x2048x1024 : Shape := ⟨3, ![4, 2048, 1024]⟩
abbrev S2048x4x1024 : Shape := ⟨3, ![2048, 4, 1024]⟩
abbrev S2048x4096 : Shape := ⟨2, ![2048, 4096]⟩
abbrev S2048x256 : Shape := ⟨2, ![2048, 256]⟩
abbrev S2048 : Shape := ⟨1, ![2048]⟩
abbrev S2048x1 : Shape := ⟨2, ![2048, 1]⟩

abbrev nBuf : Space → Nat
  | .hbm => 59
  | .vmem => 0
  | .smem => 0
  | _ => 0

abbrev bufTy : (tb : Table) → Fin (tcTables nBuf tb) → BufTy
  | .hbm, ⟨0, _⟩ => ⟨S4x512, .i32⟩
  | .hbm, ⟨1, _⟩ => ⟨S4x512, .i32⟩
  | .hbm, ⟨2, _⟩ => ⟨S4x512, .i32⟩
  | .hbm, ⟨3, _⟩ => ⟨S4x1x1024, .i32⟩
  | .hbm, ⟨4, _⟩ => ⟨S250000x256, .f32⟩
  | .hbm, ⟨5, _⟩ => ⟨S1000x256, .f32⟩
  | .hbm, ⟨6, _⟩ => ⟨S4x1024, .i32⟩
  | .hbm, ⟨7, _⟩ => ⟨S4x2048, .i32⟩
  | .hbm, ⟨8, _⟩ => ⟨S_, .i32⟩
  | .hbm, ⟨9, _⟩ => ⟨S4x2048, .i32⟩
  | .hbm, ⟨10, _⟩ => ⟨S4x2048, .i1⟩
  | .hbm, ⟨11, _⟩ => ⟨S_, .i32⟩
  | .hbm, ⟨12, _⟩ => ⟨S4x2048, .i32⟩
  | .hbm, ⟨13, _⟩ => ⟨S4x2048, .i32⟩
  | .hbm, ⟨14, _⟩ => ⟨S4x2048, .i32⟩
  | .hbm, ⟨15, _⟩ => ⟨S4x2048x1, .i32⟩
  | .hbm, ⟨16, _⟩ => ⟨S4x2048x256, .f32⟩
  | .hbm, ⟨17, _⟩ => ⟨S4x512x256, .f32⟩
  | .hbm, ⟨18, _⟩ => ⟨S4x512x256, .f32⟩
  | .hbm, ⟨19, _⟩ => ⟨S4x1024x256, .f32⟩
  | .hbm, ⟨20, _⟩ => ⟨S4x1x1024x256, .f32⟩
  | .hbm, ⟨21, _⟩ => ⟨S1x1x1024x256, .f32⟩
  | .hbm, ⟨22, _⟩ => ⟨S1x1024x256, .f32⟩
  | .hbm, ⟨23, _⟩ => ⟨S1x1x1024x256, .f32⟩
  | .hbm, ⟨24, _⟩ => ⟨S4x4x512, .i32⟩
  | .hbm, ⟨25, _⟩ => ⟨S4x4x512x256, .f32⟩
  | .hbm, ⟨26, _⟩ => ⟨S8192x256, .f32⟩
  | .hbm, ⟨27, _⟩ => ⟨S8192, .i32⟩
  | .hbm, ⟨28, _⟩ => ⟨S_, .i32⟩
  | .hbm, ⟨29, _⟩ => ⟨S8192, .i32⟩
  | .hbm, ⟨30, _⟩ => ⟨S8192, .i1⟩
  | .hbm, ⟨31, _⟩ => ⟨S_, .i32⟩
  | .hbm, ⟨32, _⟩ => ⟨S8192, .i32⟩
  | .hbm, ⟨33, _⟩ => ⟨S8192, .i32⟩
  | .hbm, ⟨34, _⟩ => ⟨S8192, .i32⟩
  | .hbm, ⟨35, _⟩ => ⟨S8192x1, .i32⟩
  | .hbm, ⟨36, _⟩ => ⟨S8192x256, .f32⟩
  | .hbm, ⟨37, _⟩ => ⟨S1024x256, .f32⟩
  | .hbm, ⟨38, _⟩ => ⟨S8192x256, .f32⟩
  | .hbm, ⟨39, _⟩ => ⟨S8192x1024, .f32⟩
  | .hbm, ⟨40, _⟩ => ⟨S4x2048x1024, .f32⟩
  | .hbm, ⟨41, _⟩ => ⟨S2048x4x1024, .f32⟩
  | .hbm, ⟨42, _⟩ => ⟨S2048x4096, .f32⟩
  | .hbm, ⟨43, _⟩ => ⟨S2048x256, .f32⟩
  | .hbm, ⟨44, _⟩ => ⟨S2048, .i32⟩
  | .hbm, ⟨45, _⟩ => ⟨S_, .i32⟩
  | .hbm, ⟨46, _⟩ => ⟨S2048, .i32⟩
  | .hbm, ⟨47, _⟩ => ⟨S2048, .i1⟩
  | .hbm, ⟨48, _⟩ => ⟨S_, .i32⟩
  | .hbm, ⟨49, _⟩ => ⟨S2048, .i32⟩
  | .hbm, ⟨50, _⟩ => ⟨S2048, .i32⟩
  | .hbm, ⟨51, _⟩ => ⟨S2048, .i32⟩
  | .hbm, ⟨52, _⟩ => ⟨S2048x1, .i32⟩
  | .hbm, ⟨53, _⟩ => ⟨S2048x256, .f32⟩
  | .hbm, ⟨54, _⟩ => ⟨S2048x256, .f32⟩
  | .hbm, ⟨55, _⟩ => ⟨S2048x256, .f32⟩
  | .hbm, ⟨56, _⟩ => ⟨S2048x256, .f32⟩
  | .hbm, ⟨57, _⟩ => ⟨S_, .f32⟩
  | .hbm, ⟨58, _⟩ => ⟨S2048, .f32⟩
  | _, _ => ⟨S4x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_1 : Ref sig .tc := ⟨.hbm, 28, rfl⟩
abbrev main_v20 : Ref sig .tc := ⟨.hbm, 29, rfl⟩
abbrev main_v21 : Ref sig .tc := ⟨.hbm, 30, rfl⟩
abbrev main_c_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_c_3 : Ref sig .tc := ⟨.hbm, 45, rfl⟩
abbrev main_v35 : Ref sig .tc := ⟨.hbm, 46, rfl⟩
abbrev main_v36 : Ref sig .tc := ⟨.hbm, 47, rfl⟩
abbrev main_c_4 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst : Ref sig .tc := ⟨.hbm, 57, rfl⟩
abbrev main_v45 : Ref sig .tc := ⟨.hbm, 58, rfl⟩

abbrev nD : Nat := 1
abbrev τ : Topo := Topo.v7x

variable {F : FTy → Type} [FloatOps F]

class Facts₀ : Prop where
  shapeCasts_S4x1x1024_S4x1024 : S4x1x1024.ShapeCasts S4x1024
  concatenates_S4x512_S4x512_S4x1024_S4x2048_d1 : Shape.Concatenates [S4x512, S4x512, S4x1024] S4x2048 1
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  slices_S4x2048x256_S4x512x256_0_0_0 : S4x2048x256.Slices ![0, 0, 0] S4x512x256
  slices_S4x2048x256_S4x512x256_0_512_0 : S4x2048x256.Slices ![0, 512, 0] S4x512x256
  slices_S4x2048x256_S4x1024x256_0_1024_0 : S4x2048x256.Slices ![0, 1024, 0] S4x1024x256
  shapeCasts_S4x1024x256_S4x1x1024x256 : S4x1024x256.ShapeCasts S4x1x1024x256
  slices_S4x1x1024x256_S1x1x1024x256_0_0_0_0 : S4x1x1024x256.Slices ![0, 0, 0, 0] S1x1x1024x256
  shapeCasts_S1x1x1024x256_S1x1024x256 : S1x1x1024x256.ShapeCasts S1x1024x256
  bcast_S1x1024x256_S1x1x1024x256_1_2_3 : S1x1024x256.BroadcastsInDim S1x1x1024x256 (![1, 2, 3] : Fin 3 → Fin S1x1x1024x256.rank)
  bcast_S4x512_S4x4x512_1_2 : S4x512.BroadcastsInDim S4x4x512 (![1, 2] : Fin 2 → Fin S4x4x512.rank)
  bcast_S4x512x256_S4x4x512x256_1_2_3 : S4x512x256.BroadcastsInDim S4x4x512x256 (![1, 2, 3] : Fin 3 → Fin S4x4x512x256.rank)
  shapeCasts_S4x4x512x256_S8192x256 : S4x4x512x256.ShapeCasts S8192x256
  shapeCasts_S4x4x512_S8192 : S4x4x512.ShapeCasts S8192
  bcast_S_S8192 : S_.BroadcastsInDim S8192 (![] : Fin 0 → Fin S8192.rank)
  bcast_S8192_S8192x1_0 : S8192.BroadcastsInDim S8192x1 (![0] : Fin 1 → Fin S8192x1.rank)
  shapeCasts_S1x1x1024x256_S1024x256 : S1x1x1024x256.ShapeCasts S1024x256
  shapeCasts_S8192x1024_S4x2048x1024 : S8192x1024.ShapeCasts S4x2048x1024
  transposes_S4x2048x1024_S2048x4x1024_1_0_2 : S4x2048x1024.Transposes [1, 0, 2] S2048x4x1024
  shapeCasts_S2048x4x1024_S2048x4096 : S2048x4x1024.ShapeCasts S2048x4096
  shapeCasts_S4x512x256_S2048x256 : S4x512x256.ShapeCasts S2048x256
  shapeCasts_S4x512_S2048 : S4x512.ShapeCasts S2048
  bcast_S_S2048 : S_.BroadcastsInDim S2048 (![] : Fin 0 → Fin S2048.rank)
  bcast_S2048_S2048x1_0 : S2048.BroadcastsInDim S2048x1 (![0] : Fin 1 → Fin S2048x1.rank)
  reducesTo_S2048x256_S2048_d1 : S2048x256.ReducesTo [1] S2048
  h_S_ : 0 < S_.numel
  gather_S250000x256_S4x2048x1_S4x2048x256_2_0_n_n_0_2_1256_wf : GatherDims.WF S250000x256 S4x2048x1 S4x2048x256 [2] [0] [] [0] [] 2 ![1, 256]
  gather_S1000x256_S8192x1_S8192x256_1_0_n_n_0_1_1256_wf : GatherDims.WF S1000x256 S8192x1 S8192x256 [1] [0] [] [0] [] 1 ![1, 256]
  dot_S8192x256_S1024x256_S8192x1024_1_1_0_0_n_n_wf : DotDims.WF S8192x256 S1024x256 S8192x1024 [1] [1] [0] [0] [] []
  gather_S1000x256_S2048x1_S2048x256_1_0_n_n_0_1_1256_wf : GatherDims.WF S1000x256 S2048x1 S2048x256 [1] [0] [] [0] [] 1 ![1, 256]

variable [Facts₀]

def gather_S250000x256_S4x2048x1_S4x2048x256_2_0_n_n_0_2_1256 : GatherDims S250000x256 S4x2048x1 S4x2048x256 where
  offsetDims := [2]
  collapsedSliceDims := [0]
  operandBatchingDims := []
  startIndicesBatchingDims := []
  startIndexMap := [0]
  indexVectorDim := 2
  sliceSizes := ![1, 256]
  wf := gather_S250000x256_S4x2048x1_S4x2048x256_2_0_n_n_0_2_1256_wf
def gather_S1000x256_S8192x1_S8192x256_1_0_n_n_0_1_1256 : GatherDims S1000x256 S8192x1 S8192x256 where
  offsetDims := [1]
  collapsedSliceDims := [0]
  operandBatchingDims := []
  startIndicesBatchingDims := []
  startIndexMap := [0]
  indexVectorDim := 1
  sliceSizes := ![1, 256]
  wf := gather_S1000x256_S8192x1_S8192x256_1_0_n_n_0_1_1256_wf
def dot_S8192x256_S1024x256_S8192x1024_1_1_0_0_n_n : DotDims S8192x256 S1024x256 S8192x1024 where
  lhsContracting := [1]
  rhsContracting := [1]
  lhsNonContracting := [0]
  rhsNonContracting := [0]
  lhsBatch := []
  rhsBatch := []
  wf := dot_S8192x256_S1024x256_S8192x1024_1_1_0_0_n_n_wf
def gather_S1000x256_S2048x1_S2048x256_1_0_n_n_0_1_1256 : GatherDims S1000x256 S2048x1 S2048x256 where
  offsetDims := [1]
  collapsedSliceDims := [0]
  operandBatchingDims := []
  startIndicesBatchingDims := []
  startIndexMap := [0]
  indexVectorDim := 1
  sliceSizes := ![1, 256]
  wf := gather_S1000x256_S2048x1_S2048x256_1_0_n_n_0_1_1256_wf

class Facts : Prop extends Facts₀ where

variable [Facts]
-- ==== Proof.LibKeepdims.lean ====
/-
  A column of per-row values kept as a rank-2 array with a trailing unit axis, read at an index: what a row reduction
  with the reduced axis kept (a sum over the last axis that stays rank 2) needs on the way back to full width.

    [a] cast to [a, 1]          reads, at (i, u), the operand at i, whatever the unit coordinate u;
    [a, 1] broadcast to [a, b]  reads, at (p, c), the operand's row p at its one column.

  Both are the row-major position argument of the leading-unit-axis forms with the axes exchanged.
-/
import Idealize.ShloMosaic.Lib.ValueIdx
import Idealize.ShloMosaic.Lib.Pipeline.Value

namespace Idealize.ShloMosaic.Keepdims

open Idealize.ShloMosaic Idealize.ShloMosaic.ValueIdx

variable {α : Type}

/-- An `[a]` array cast to `[a, 1]` reads, at `(i, u)`, the operand at `i`: position `i · 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` array broadcast to `[a, b]` reads, at `(p, c)`, the operand's row `p` at its one column. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Idealize.ShloMosaic.Keepdims
-- ==== Proof.KernelBody.lean ====
/-
  What one grid point of the scoring kernel leaves in its two output blocks, read at an index.

  A point loads a 256-row block of head rows `h`, relation rows `r` and tail rows `t` (each 256 x 256) and the whole
  1024 x 256 array of negative rows `g`.  Its first output block (256 x 1) holds, at row `p`, the sum over the
  embedding axis of `(h p e * r p e) * t p e`: a lane sum from the neutral zero, kept as a column.  Its second output
  block (256 x 4096) is four copies, side by side, of the 256 x 1024 product of `h * r` with `g` contracted over the
  embedding axis; the narrowing of both factors to the shorter float format before the product is the identity on the
  extended reals, and the product is accumulated into a zero array.  So at `(p, q)` it holds the sum over `e` of
  `(h p e * r p e) * g (q mod 1024) e`.
-/
import proofs.«137559_j24197845745912_1_alg».proof.Proof.Gen.KernelIdeal.Frame
import proofs.«137559_j24197845745912_1_alg».proof.Proof.LibKeepdims
import Idealize.ShloMosaic.Lib.ValueIdx
import Idealize.ShloMosaic.Lib.Pipeline.Value
import Idealize.ShloMosaic.PureOps.Ideal.Laws

noncomputable section

namespace Cert.KernelIdeal.Score

open Cert.KernelIdeal Cert.KernelIdeal.Gen Idealize.ShloMosaic Idealize.ShloMosaic.ValueIdx Idealize.ShloMosaic.Keepdims

/-- The zero offsets of a whole-block access. -/
theorem off_zero : (![0, 0] : Fin 2 → Nat) = fun _ => 0 := by
  funext a; match a with | ⟨0, _⟩ => rfl | ⟨1, _⟩ => rfl

/-- Row `p` of the lane-reduced array with lane `k` put back is `(p, k)`. -/
theorem lift_lane (h : S256x256.Reduces [1] S256) (p : Fin 256) (k : Fin (S256x256.size 1)) :
    h.lift (ix1 p) k = ix2 p (⟨k.val, k.isLt⟩ : Fin 256) := by
  funext c; apply Fin.ext
  match c with
  | ⟨0, _⟩ => rfl
  | ⟨1, _⟩ => rfl

/-- The product of the head and relation blocks, element by element. -/
theorem headRel_apply (x0 x1 : Vec Ideal S256x256 .f32) (j : S256x256.Idx) :
    k0_pay1 (F := Ideal) x0 x1 j = x0 j * x1 j := by
  unfold k0_pay1
  rw [shapeCast_self, shapeCast_self]
  rfl

/-- A lane sum from the zero word, at row `p`: the sum of the row's entries. -/
theorem laneSum_apply (v : FVec Ideal S256x256 .f32) (h : S256x256.Reduces [1] S256) (hφ : FKind.Formats .f32)
    (hacc : (0x00000000#32 : BitVec 32) = 0x00000000#32) (p : Fin 256) :
    multiReduction .add [1] S256 v 0x00000000#32 h hφ hacc (ix1 p) = ∑ e : Fin 256, v (ix2 p e) :=
  (Ideal.multiReduction_add_single v 0x00000000#32 h hφ hacc (ix1 p)).trans
    (Finset.sum_congr rfl fun k _ => by rw [lift_lane]; rfl)

/-- The first output block's payload at row `p`: the three-way product summed over the lanes. -/
theorem pos_payload (x0 x1 x2 : Vec Ideal S256x256 .f32) (p : Fin 256) (u : Fin 1) :
    k0_pay2 (F := Ideal) x0 x1 x2 (ix2 p u) = ∑ e : Fin 256, (x0 (ix2 p e) * x1 (ix2 p e)) * x2 (ix2 p e) := by
  unfold k0_pay2
  refine (shapeCast_a_a1_apply _ _ p u).trans ?_
  refine (laneSum_apply _ _ _ _ p).trans ?_
  refine Finset.sum_congr rfl fun e _ => ?_
  rw [mulf_apply, headRel_apply, shapeCast_self]

/-! ## The product with the negative rows -/

theorem lhs_axis0 (i : S256x1024.Idx) (q : dot_S256x256_S1024x256_S256x1024_1_1_0_0_n_n.contr.Idx) :
    (dot_S256x256_S1024x256_S256x1024_1_1_0_0_n_n.lhsIdx i q 0).val = (i 0).val := by
  unfold DotDims.lhsIdx
  rw [dif_neg (show ¬(0 : Fin S256x256.rank) ∈ dot_S256x256_S1024x256_S256x1024_1_1_0_0_n_n.lhsBatch by decide), dif_pos (show (0 : Fin S256x256.rank) ∈ dot_S256x256_S1024x256_S256x1024_1_1_0_0_n_n.lhsNonContracting by decide)]
  rfl
theorem lhs_axis1 (i : S256x1024.Idx) (q : dot_S256x256_S1024x256_S256x1024_1_1_0_0_n_n.contr.Idx) :
    (dot_S256x256_S1024x256_S256x1024_1_1_0_0_n_n.lhsIdx i q 1).val = (q ⟨0, by decide⟩).val :=
  dot_S256x256_S1024x256_S256x1024_1_1_0_0_n_n.lhsIdx_val_of_single rfl i q
theorem rhs_axis0 (i : S256x1024.Idx) (q : dot_S256x256_S1024x256_S256x1024_1_1_0_0_n_n.contr.Idx) :
    (dot_S256x256_S1024x256_S256x1024_1_1_0_0_n_n.rhsIdx i q 0).val = (i 1).val := by
  unfold DotDims.rhsIdx
  rw [dif_neg (show ¬(0 : Fin S1024x256.rank) ∈ dot_S256x256_S1024x256_S256x1024_1_1_0_0_n_n.rhsBatch by decide), dif_pos (show (0 : Fin S1024x256.rank) ∈ dot_S256x256_S1024x256_S256x1024_1_1_0_0_n_n.rhsNonContracting by decide)]
  rfl
theorem rhs_axis1 (i : S256x1024.Idx) (q : dot_S256x256_S1024x256_S256x1024_1_1_0_0_n_n.contr.Idx) :
    (dot_S256x256_S1024x256_S256x1024_1_1_0_0_n_n.rhsIdx i q 1).val = (q ⟨0, by decide⟩).val :=
  dot_S256x256_S1024x256_S256x1024_1_1_0_0_n_n.rhsIdx_val_of_single rfl i q

/-- The product accumulated into the zero array, at `(p, n)`: row `p` of the left factor against row `n` of the right,
    summed over the one contracted axis. -/
theorem product_apply (l : FVec Ideal S256x256 .bf16) (r : FVec Ideal S1024x256 .bf16) (p : Fin 256) (n : Fin 1024) :
    matmul dot_S256x256_S1024x256_S256x1024_1_1_0_0_n_n none l r (constant S256x1024 .f32 0x00000000#32) (ix2 p n)
      = ∑ e : Fin 256, l (ix2 p e) * r (ix2 n e) := by
  show FloatOps.matmul dot_S256x256_S1024x256_S256x1024_1_1_0_0_n_n none l r (constant S256x1024 .f32 0x00000000#32) (ix2 p n) = _
  rw [Ideal.matmul_constant_zero_apply, ← Equiv.sum_comp (contrEquiv1 dot_S256x256_S1024x256_S256x1024_1_1_0_0_n_n 256 rfl rfl).symm]
  refine Finset.sum_congr rfl fun k _ => ?_
  have hk := contrEquiv1_symm_val dot_S256x256_S1024x256_S256x1024_1_1_0_0_n_n 256 rfl rfl k
  have el : dot_S256x256_S1024x256_S256x1024_1_1_0_0_n_n.lhsIdx (ix2 p n) ((contrEquiv1 dot_S256x256_S1024x256_S256x1024_1_1_0_0_n_n 256 rfl rfl).symm k) = ix2 p k := funext fun a => Fin.ext (by
    match a with
    | ⟨0, _⟩ => exact lhs_axis0 _ _
    | ⟨1, _⟩ => exact (lhs_axis1 _ _).trans hk)
  have er : dot_S256x256_S1024x256_S256x1024_1_1_0_0_n_n.rhsIdx (ix2 p n) ((contrEquiv1 dot_S256x256_S1024x256_S256x1024_1_1_0_0_n_n 256 rfl rfl).symm k) = ix2 n k := funext fun a => Fin.ext (by
    match a with
    | ⟨0, _⟩ => exact rhs_axis0 _ _
    | ⟨1, _⟩ => exact (rhs_axis1 _ _).trans hk)
  rw [el, er]

/-- Four copies of a 256 x 1024 array side by side, at `(p, q)`: the array at `(p, q mod 1024)`. -/
theorem fourCopies_apply (v : FVec Ideal S256x1024 .f32)
    (h : Shape.Concatenates [S256x1024, S256x1024, S256x1024, S256x1024] S256x4096 1) (p : Fin 256) (q : Fin 4096) :
    concatenate S256x4096 1 [⟨S256x1024, v⟩, ⟨S256x1024, v⟩, ⟨S256x1024, v⟩, ⟨S256x1024, v⟩] h (ix2 p q)
      = v (ix2 p (⟨q.val % 1024, Nat.mod_lt _ (by decide)⟩ : Fin 1024)) :=
  concatenate_replicate_apply (t := S256x4096) (s₁ := S256x1024) 1 4 v h rfl (ix2 p q) _ rfl
    (fun b hb => by
      match b with
      | ⟨0, _⟩ => rfl
      | ⟨1, _⟩ => exact absurd rfl hb)

/-- The second output block's payload at `(p, q)`. -/
theorem neg_payload (x0 x1 : Vec Ideal S256x256 .f32) (x3 : Vec Ideal S1024x256 .f32) (p : Fin 256) (q : Fin 4096) :
    k0_pay3 (F := Ideal) x0 x1 x3 (ix2 p q)
      = ∑ e : Fin 256, (x0 (ix2 p e) * x1 (ix2 p e)) * x3 (ix2 (⟨q.val % 1024, Nat.mod_lt _ (by decide)⟩ : Fin 1024) e) := by
  unfold k0_pay3
  refine (fourCopies_apply _ _ p q).trans ?_
  refine (product_apply _ _ p _).trans ?_
  refine Finset.sum_congr rfl fun e _ => ?_
  rw [truncf_apply, truncf_apply, headRel_apply, shapeCast_self]

/-! ## The blocks the two stores leave -/

/-- The first output block at `(p, u)`, from the point's input blocks. -/
theorem posBlock_apply (x0 x1 x2 : Vec Ideal S256x256 .f32) (x3 : Vec Ideal S1024x256 .f32) (p : Fin 256) (u : Fin 1) :
    out0_4 (F := Ideal) x0 x1 x2 x3 (ix2 p u) = ∑ e : Fin 256, (x0 (ix2 p e) * x1 (ix2 p e)) * x2 (ix2 p e) := by
  unfold out0_4
  rw [View.canon_unit_zero off_zero]
  simp only [View.ld_unit_zero (S := S256x256) off_zero]
  exact pos_payload x0 x1 x2 p u

/-- The second output block at `(p, q)`, from the point's input blocks. -/
theorem negBlock_apply (x0 x1 x2 : Vec Ideal S256x256 .f32) (x3 : Vec Ideal S1024x256 .f32) (p : Fin 256) (q : Fin 4096) :
    out0_5 (F := Ideal) x0 x1 x2 x3 (ix2 p q)
      = ∑ e : Fin 256, (x0 (ix2 p e) * x1 (ix2 p e)) * x3 (ix2 (⟨q.val % 1024, Nat.mod_lt _ (by decide)⟩ : Fin 1024) e) := by
  unfold out0_5
  rw [View.canon_unit_zero off_zero]
  simp only [View.ld_unit_zero (S := S256x256) off_zero, View.ld_unit_zero (S := S1024x256) off_zero]
  exact neg_payload x0 x1 x3 p q

end Cert.KernelIdeal.Score

end
-- ==== Proof.KernelArrays.lean ====
/-
  The two result arrays of the scoring kernel after all eight grid points, each as one function of the four arrays the
  kernel is launched on.

  Point `t` reads rows `256 t … 256 t + 255` of the head, relation and tail rows and all of the negative rows, and
  writes back rows `256 t … 256 t + 255` of both results.  So what it writes back is its block of ONE whole-array
  function — row `i` of the first result the three-way product summed over the embedding axis, entry `(i, c)` of the
  second the product of head and relation rows against negative row `c mod 1024` —, the eight blocks tile both result
  arrays, and the arrays end holding those functions.
-/
import proofs.«137559_j24197845745912_1_alg».proof.Proof.KernelBody

noncomputable section

namespace Cert.KernelIdeal.Score

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The four arrays the kernel is launched on, at their literal types. -/
abbrev headArr (c : Dev nD) : S2048x256.Idx → EReal := V m c main_v11
abbrev relArr (c : Dev nD) : S2048x256.Idx → EReal := V m c main_v32
abbrev tailArr (c : Dev nD) : S2048x256.Idx → EReal := V m c main_v18
abbrev negArr (c : Dev nD) : S1024x256.Idx → EReal := V m c main_v25

/-- The first result as a 2048 x 1 column: row `i` holds the three-way product summed over the embedding axis. -/
def posCol (c : Dev nD) : S2048x1.Idx → EReal := fun i =>
  ∑ e : Fin 256, (headArr m c (ix2 (i 0 : Fin 2048) e) * relArr m c (ix2 (i 0 : Fin 2048) e)) * tailArr m c (ix2 (i 0 : Fin 2048) e)

/-- The second result: entry `(i, c)` scores triple `i` against negative `c mod 1024`. -/
def negMat (c : Dev nD) : S2048x4096.Idx → EReal := fun j =>
  ∑ e : Fin 256, (headArr m c (ix2 (j 0 : Fin 2048) e) * relArr m c (ix2 (j 0 : Fin 2048) e)) *
    negArr m c (ix2 (⟨(j 1).val % 1024, Nat.mod_lt _ (by decide)⟩ : Fin 1024) e)

/-- The printed block indices, decided over the eight points: every row-tiled window is at block row `t`, the
    negative rows always at block 0. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The first output block at any index of the block. -/
theorem posBlock_at (x0 x1 x2 : Vec Ideal S256x256 .f32) (x3 : Vec Ideal S1024x256 .f32) (y : S256x1.Idx) :
    out0_4 (F := Ideal) x0 x1 x2 x3 y
      = ∑ e : Fin 256, (x0 (ix2 (y 0 : Fin 256) e) * x1 (ix2 (y 0 : Fin 256) e)) * x2 (ix2 (y 0 : Fin 256) e) := by
  obtain ⟨p, u, rfl⟩ : ∃ (p : Fin 256) (u : Fin 1), y = ix2 p u := ⟨y 0, y 1, eq_ix2 y⟩
  exact posBlock_apply x0 x1 x2 x3 p u

/-- The second output block at any index of the block. -/
theorem negBlock_at (x0 x1 x2 : Vec Ideal S256x256 .f32) (x3 : Vec Ideal S1024x256 .f32) (y : S256x4096.Idx) :
    out0_5 (F := Ideal) x0 x1 x2 x3 y
      = ∑ e : Fin 256, (x0 (ix2 (y 0 : Fin 256) e) * x1 (ix2 (y 0 : Fin 256) e)) *
          x3 (ix2 (⟨(y 1).val % 1024, Nat.mod_lt _ (by decide)⟩ : Fin 1024) e) := by
  obtain ⟨p, q, rfl⟩ : ∃ (p : Fin 256) (q : Fin 4096), y = ix2 p q := ⟨y 0, y 1, eq_ix2 y⟩
  exact negBlock_apply x0 x1 x2 x3 p q

/-- What point `t` writes back to the first result is block `t` of `posCol`. -/
theorem posFlushed_eq (c : Dev nD) (t : Fin cfg0.N) :
    (dats m 0 c).flushed 4 t = ((cfg0.win 4).blk t).view.read (Elt Ideal) (posCol m c) := by
  show (cfg0.win 4).cut (grid0.coords t) ((dats m 0 c).after 4 t) = _
  rw [after0_4]
  obtain ⟨a0, a1, b0, b1, c0, c1, d0, d1, e0, e1, f0, f1⟩ := block_index t
  funext y
  show out0_4 (F := Ideal) (iblk m c 0 t) (iblk m c 1 t) (iblk m c 2 t) (iblk m c 3 t) y
    = posCol m c (((cfg0.win 4).blk t).view.emb y)
  refine (posBlock_at _ _ _ _ y).trans ?_
  refine Finset.sum_congr rfl fun e _ => ?_
  have h0 : ((cfg0.win 0).blk t).view.emb (ix2 (y 0 : Fin 256) e) = ix2 ((((cfg0.win 4).blk t).view.emb y) 0 : Fin 2048) e := by
    funext a; apply Fin.ext
    match a with
    | ⟨0, _⟩ => show win0_0.index t (0 : Fin 2) * 256 + 1 * (y 0).val = win0_4.index t (0 : Fin 2) * 256 + 1 * (y 0).val; omega
    | ⟨1, _⟩ => show win0_0.index t (1 : Fin 2) * 256 + 1 * e.val = e.val; omega
  have h1 : ((cfg0.win 1).blk t).view.emb (ix2 (y 0 : Fin 256) e) = ix2 ((((cfg0.win 4).blk t).view.emb y) 0 : Fin 2048) e := by
    funext a; apply Fin.ext
    match a with
    | ⟨0, _⟩ => show win0_1.index t (0 : Fin 2) * 256 + 1 * (y 0).val = win0_4.index t (0 : Fin 2) * 256 + 1 * (y 0).val; omega
    | ⟨1, _⟩ => show win0_1.index t (1 : Fin 2) * 256 + 1 * e.val = e.val; omega
  have h2 : ((cfg0.win 2).blk t).view.emb (ix2 (y 0 : Fin 256) e) = ix2 ((((cfg0.win 4).blk t).view.emb y) 0 : Fin 2048) e := by
    funext a; apply Fin.ext
    match a with
    | ⟨0, _⟩ => show win0_2.index t (0 : Fin 2) * 256 + 1 * (y 0).val = win0_4.index t (0 : Fin 2) * 256 + 1 * (y 0).val; omega
    | ⟨1, _⟩ => show win0_2.index t (1 : Fin 2) * 256 + 1 * e.val = e.val; omega
  show (headArr m c (((cfg0.win 0).blk t).view.emb (ix2 (y 0 : Fin 256) e)) * relArr m c (((cfg0.win 1).blk t).view.emb (ix2 (y 0 : Fin 256) e)))
      * tailArr m c (((cfg0.win 2).blk t).view.emb (ix2 (y 0 : Fin 256) e))
    = (headArr m c (ix2 ((((cfg0.win 4).blk t).view.emb y) 0 : Fin 2048) e) * relArr m c (ix2 ((((cfg0.win 4).blk t).view.emb y) 0 : Fin 2048) e))
      * tailArr m c (ix2 ((((cfg0.win 4).blk t).view.emb y) 0 : Fin 2048) e)
  rw [h0, h1, h2]
  rfl

/-- What point `t` writes back to the second result is block `t` of `negMat`. -/
theorem negFlushed_eq (c : Dev nD) (t : Fin cfg0.N) :
    (dats m 0 c).flushed 5 t = ((cfg0.win 5).blk t).view.read (Elt Ideal) (negMat m c) := by
  show (cfg0.win 5).cut (grid0.coords t) ((dats m 0 c).after 5 t) = _
  rw [after0_5]
  obtain ⟨a0, a1, b0, b1, c0, c1, d0, d1, e0, e1, f0, f1⟩ := block_index t
  funext y
  show out0_5 (F := Ideal) (iblk m c 0 t) (iblk m c 1 t) (iblk m c 2 t) (iblk m c 3 t) y
    = negMat m c (((cfg0.win 5).blk t).view.emb y)
  refine (negBlock_at _ _ _ _ y).trans ?_
  refine Finset.sum_congr rfl fun e _ => ?_
  have h0 : ((cfg0.win 0).blk t).view.emb (ix2 (y 0 : Fin 256) e) = ix2 ((((cfg0.win 5).blk t).view.emb y) 0 : Fin 2048) e := by
    funext a; apply Fin.ext
    match a with
    | ⟨0, _⟩ => show win0_0.index t (0 : Fin 2) * 256 + 1 * (y 0).val = win0_5.index t (0 : Fin 2) * 256 + 1 * (y 0).val; omega
    | ⟨1, _⟩ => show win0_0.index t (1 : Fin 2) * 256 + 1 * e.val = e.val; omega
  have h1 : ((cfg0.win 1).blk t).view.emb (ix2 (y 0 : Fin 256) e) = ix2 ((((cfg0.win 5).blk t).view.emb y) 0 : Fin 2048) e := by
    funext a; apply Fin.ext
    match a with
    | ⟨0, _⟩ => show win0_1.index t (0 : Fin 2) * 256 + 1 * (y 0).val = win0_5.index t (0 : Fin 2) * 256 + 1 * (y 0).val; omega
    | ⟨1, _⟩ => show win0_1.index t (1 : Fin 2) * 256 + 1 * e.val = e.val; omega
  have hy1 : (y 1).val < 4096 := (y 1).isLt
  have h3 : ((cfg0.win 3).blk t).view.emb (ix2 (⟨(y 1).val % 1024, Nat.mod_lt _ (by decide)⟩ : Fin 1024) e)
      = ix2 (⟨((((cfg0.win 5).blk t).view.emb y) 1).val % 1024, Nat.mod_lt _ (by decide)⟩ : Fin 1024) e := by
    funext a; apply Fin.ext
    match a with
    | ⟨0, _⟩ => show win0_3.index t (0 : Fin 2) * 1024 + 1 * ((y 1).val % 1024) = (win0_5.index t (1 : Fin 2) * 4096 + 1 * (y 1).val) % 1024; omega
    | ⟨1, _⟩ => show win0_3.index t (1 : Fin 2) * 256 + 1 * e.val = e.val; omega
  show (headArr m c (((cfg0.win 0).blk t).view.emb (ix2 (y 0 : Fin 256) e)) * relArr m c (((cfg0.win 1).blk t).view.emb (ix2 (y 0 : Fin 256) e)))
      * negArr m c (((cfg0.win 3).blk t).view.emb (ix2 (⟨(y 1).val % 1024, Nat.mod_lt _ (by decide)⟩ : Fin 1024) e))
    = (headArr m c (ix2 ((((cfg0.win 5).blk t).view.emb y) 0 : Fin 2048) e) * relArr m c (ix2 ((((cfg0.win 5).blk t).view.emb y) 0 : Fin 2048) e))
      * negArr m c (ix2 (⟨((((cfg0.win 5).blk t).view.emb y) 1).val % 1024, Nat.mod_lt _ (by decide)⟩ : Fin 1024) e)
  rw [h0, h1, h3]
  rfl

/-- An index of the first result is in point `t`'s block iff each coordinate is in the block's range. -/
theorem pos_mem_blk (t : Fin cfg0.N) (i : S2048x1.Idx) :
    i ∈ ((cfg0.win 4).blk t).view.set ↔ ∀ a : Fin 2, win0_4.index t a * S256x1.size a ≤ (i a).val ∧ (i a).val < win0_4.index t a * S256x1.size a + S256x1.size a := by
  show i ∈ ((View.whole main_v33_0).slice (win0_4.rect t)).set ↔ _
  rw [View.set_slice_whole, Rect.mem_set_unit]
  exact Iff.rfl

/-- An index of the second result is in point `t`'s block iff each coordinate is in the block's range. -/
theorem neg_mem_blk (t : Fin cfg0.N) (i : S2048x4096.Idx) :
    i ∈ ((cfg0.win 5).blk t).view.set ↔ ∀ a : Fin 2, win0_5.index t a * S256x4096.size a ≤ (i a).val ∧ (i a).val < win0_5.index t a * S256x4096.size a + S256x4096.size a := by
  show i ∈ ((View.whole main_v33_1).slice (win0_5.rect t)).set ↔ _
  rw [View.set_slice_whole, Rect.mem_set_unit]
  exact Iff.rfl

/-- Row `r` of a result lies in the block of point `r / 256`. -/
def pointOf (r : Fin 2048) : Fin cfg0.N := ⟨r.val / 256, by rw [show cfg0.N = 8 from N_0]; have := r.isLt; omega⟩

/-- The first result after the run is `posCol`: the eight blocks tile it. -/
theorem posFinal (c : Dev nD) : (dats m 0 c).arrAt 4 cfg0.N = posCol m c :=
  (dats m 0 c).arrAt_eq_of_cover 4 (posCol m c) (fun t _ => posFlushed_eq m c t) fun i => by
    refine ⟨pointOf (i 0), flush0_4 _, ?_⟩
    obtain ⟨a0, a1, b0, b1, c0, c1, d0, d1, e0, e1, f0, f1⟩ := block_index (pointOf (i 0))
    rw [pos_mem_blk]
    have h0 : (i 0).val < 2048 := (i 0).isLt
    have h1 : (i 1).val < 1 := (i 1).isLt
    have hp : (pointOf (i 0)).val = (i 0).val / 256 := rfl
    intro a
    match a with
    | ⟨0, _⟩ => show win0_4.index (pointOf (i 0)) (0 : Fin 2) * 256 ≤ (i 0).val ∧ (i 0).val < win0_4.index (pointOf (i 0)) (0 : Fin 2) * 256 + 256; omega
    | ⟨1, _⟩ => show win0_4.index (pointOf (i 0)) (1 : Fin 2) * 1 ≤ (i 1).val ∧ (i 1).val < win0_4.index (pointOf (i 0)) (1 : Fin 2) * 1 + 1; omega

/-- The second result after the run is `negMat`. -/
theorem negFinal (c : Dev nD) : (dats m 0 c).arrAt 5 cfg0.N = negMat m c :=
  (dats m 0 c).arrAt_eq_of_cover 5 (negMat m c) (fun t _ => negFlushed_eq m c t) fun i => by
    refine ⟨pointOf (i 0), flush0_5 _, ?_⟩
    obtain ⟨a0, a1, b0, b1, c0, c1, d0, d1, e0, e1, f0, f1⟩ := block_index (pointOf (i 0))
    rw [neg_mem_blk]
    have h0 : (i 0).val < 2048 := (i 0).isLt
    have h1 : (i 1).val < 4096 := (i 1).isLt
    have hp : (pointOf (i 0)).val = (i 0).val / 256 := rfl
    intro a
    match a with
    | ⟨0, _⟩ => show win0_5.index (pointOf (i 0)) (0 : Fin 2) * 256 ≤ (i 0).val ∧ (i 0).val < win0_5.index (pointOf (i 0)) (0 : Fin 2) * 256 + 256; omega
    | ⟨1, _⟩ => show win0_5.index (pointOf (i 0)) (1 : Fin 2) * 4096 ≤ (i 1).val ∧ (i 1).val < win0_5.index (pointOf (i 0)) (1 : Fin 2) * 4096 + 4096; omega

end Cert.KernelIdeal.Score

end
-- ==== Proof.Spec.lean ====
/-
  The scoring function both programs compute, as one function of the six argument arrays.

  Four integer arrays index two embedding tables.  An index word is read the way array indexing reads it: a negative
  word has the table's length added once, and the result, read signed, is clamped into the table.  With
    h i = entity row (head word i),   r i = relation row (relation word i),   t i = entity row (tail word i),
    g n = entity row (word n of the first negative list),
  for i < 2048 (the 4 x 512 triples flattened, i = 512 * s + p) and n < 1024,
    positive i          = sum over e < 256 of (h i e * r i e) * t i e,
    negative i (c)      = sum over e < 256 of (h i e * r i e) * g (c mod 1024) e        (c < 4096).
  The negative scores repeat with period 1024 along their second axis: every one of the four column groups scores the
  triple against the same shared negatives.
-/
import Idealize.ShloMosaic.PureOps.Ideal
import Idealize.ShloMosaic.Lib.ValueIdx

noncomputable section

namespace Cert.Score

open Idealize.ShloMosaic Idealize.ShloMosaic.ValueIdx

/-- The row of an `N`-row table an index word reads: the word read signed, clamped into `[0, N - 1]`. -/
def rowOf (N : ℕ) (hN : 0 < N) (wd : BitVec 32) : Fin N := ⟨min wd.toInt.toNat (N - 1), by omega⟩

/-- An index word with the table's length added when it is negative. -/
def wrapWord (len wd : BitVec 32) : BitVec 32 :=
  Scalar.select (IntOp.cmpi .slt wd 0#32) (IntOp.addi wd len) wd

/-- Triple `i` of the flattened 4 x 512 batch, as an index of the unflattened array. -/
def tripleIdx (i : Fin 2048) : (⟨2, ![4, 512]⟩ : Shape).Idx :=
  ix2 (⟨i.val / 512, by have := i.isLt; omega⟩ : Fin 4) (⟨i.val % 512, Nat.mod_lt _ (by decide)⟩ : Fin 512)

/-- The rows of the entity table gathered by a 4 x 512 array of index words, as a 2048 x 256 array. -/
def entityRows (E : (⟨2, ![250000, 256]⟩ : Shape).Idx → EReal) (a : (⟨2, ![4, 512]⟩ : Shape).Idx → BitVec 32) :
    (⟨2, ![2048, 256]⟩ : Shape).Idx → EReal :=
  fun j => E (ix2 (rowOf 250000 (by decide) (wrapWord 250000#32 (a (tripleIdx (j 0))))) (j 1))

/-- The rows of the relation table gathered by a 4 x 512 array of index words. -/
def relationRows (R : (⟨2, ![1000, 256]⟩ : Shape).Idx → EReal) (a : (⟨2, ![4, 512]⟩ : Shape).Idx → BitVec 32) :
    (⟨2, ![2048, 256]⟩ : Shape).Idx → EReal :=
  fun j => R (ix2 (rowOf 1000 (by decide) (wrapWord 1000#32 (a (tripleIdx (j 0))))) (j 1))

/-- The rows of the entity table gathered by the first of the four negative lists, as a 1024 x 256 array. -/
def negativeRows (E : (⟨2, ![250000, 256]⟩ : Shape).Idx → EReal) (a : (⟨3, ![4, 1, 1024]⟩ : Shape).Idx → BitVec 32) :
    (⟨2, ![1024, 256]⟩ : Shape).Idx → EReal :=
  fun j => E (ix2 (rowOf 250000 (by decide) (wrapWord 250000#32 (a (ix3 (0 : Fin 4) (0 : Fin 1) (j 0))))) (j 1))

/-- The positive score of triple `i`: the three-way product summed over the embedding axis. -/
def positive (H R T : (⟨2, ![2048, 256]⟩ : Shape).Idx → EReal) : (⟨1, ![2048]⟩ : Shape).Idx → EReal :=
  fun i => ∑ e : Fin 256, (H (ix2 (i 0) e) * R (ix2 (i 0) e)) * T (ix2 (i 0) e)

/-- The negative scores: triple `i` against negative `c mod 1024`, the same in each of the four column groups. -/
def negative (H R : (⟨2, ![2048, 256]⟩ : Shape).Idx → EReal) (G : (⟨2, ![1024, 256]⟩ : Shape).Idx → EReal) :
    (⟨2, ![2048, 4096]⟩ : Shape).Idx → EReal :=
  fun j => ∑ e : Fin 256, (H (ix2 (j 0) e) * R (ix2 (j 0) e)) *
    G (ix2 (⟨(j 1).val % 1024, Nat.mod_lt _ (by decide)⟩ : Fin 1024) e)

end Cert.Score

end
-- ==== Proof.KernelRun.lean ====
/-
  The run of the scoring kernel's program, read: both results as functions of the four arrays the kernel is launched on.

  After the region the second result array holds the negative scores as the eight points left them; the first is the
  2048 x 1 column of positive scores, which the one host operation after the region flattens to 2048 entries: entry `i`
  of the flat array is row `i` of the column.
-/
import proofs.«137559_j24197845745912_1_alg».proof.Proof.KernelArrays
import proofs.«137559_j24197845745912_1_alg».proof.Proof.Spec
import Idealize.ShloMosaic.Lib.StableHlo.Run

noncomputable section

namespace Cert.KernelIdeal.Score

open Cert.KernelIdeal Cert.KernelIdeal.Gen Idealize.ShloMosaic Idealize.ShloMosaic.TcCoe Idealize.ShloMosaic.ValueIdx Idealize.SL.Sem
open Idealize.ShloMosaic.Pipeline (Dat)
open Cert.Score

variable (m : (ℓ : Loc nD τ sig) → Buf (Elt Ideal) ℓ) (ρ : Dev nD → PrngReg)

/-- The column of positive scores, flattened. -/
theorem posCol_flat (c : Dev nD) (h : S2048x1.ShapeCasts S2048) :
    shapeCast S2048 (posCol m c) h = positive (headArr m c) (relArr m c) (tailArr m c) := by
  funext i
  obtain ⟨r, rfl⟩ : ∃ r : Fin 2048, i = ix1 r := ⟨i 0, eq_ix1 i⟩
  refine (shapeCast_apply (posCol m c) h (ix1 r) (ix2 r (0 : Fin 1)) ?_).trans rfl
  rw [Shape.rowMajor_val_two, Shape.rowMajor_val_one]
  show r.val * 1 + 0 = r.val
  omega

/-- The negative scores are the specification's. -/
theorem negMat_eq (c : Dev nD) : negMat m c = negative (headArr m c) (relArr m c) (negArr m c) := rfl

/-- The flat positive scores after the host operation that follows the region. -/
theorem tail_pos (c : Dev nD) :
    Pipeline.afterTail₀ cfgs (dats m) 0 (V0 m) [hostOps1] c main_v34 = positive (headArr m c) (relArr m c) (tailArr m c) := by
  unfold Pipeline.afterTail₀
  show StableHlo.after hostOps1 _ (Proc.devRef .tc main_v34) = _
  after_results
  have e : Pipeline.withArrays (cfgs 0).spec c (V0 m c) (fun w => (dats m 0 c).arrAt w (cfgs 0).N) (Proc.tc.devRef main_v33_0)
      = posCol m c :=
    (Pipeline.withArrays_arr spec0 launch0.win.arr_inj c _ _ 4).trans (posFinal m c)
  show shapeCast S2048 (Pipeline.withArrays (cfgs 0).spec c (V0 m c) (fun w => (dats m 0 c).arrAt w (cfgs 0).N) (Proc.tc.devRef main_v33_0))
      Facts₀.shapeCasts_S2048x1_S2048 = _
  rw [e]
  exact posCol_flat m c _

/-- The run: every weakly fair execution ends with the flat positive scores and the negative scores at the
    specification's functions of the four launched arrays, and the six arguments as they were. -/
theorem run : θ_run defs (onTc (τ := τ) (main (F := Ideal))) ⟨m, fun _ => 0, ρ⟩ fun r => ∀ c : Dev nD,
      r.2.mem ((c : Thread nD τ).loc main_v34) = positive (headArr m c) (relArr m c) (tailArr m c)
      ∧ r.2.mem ((c : Thread nD τ).loc main_v33_1) = negative (headArr m c) (relArr m c) (negArr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c =>
    ⟨((h c).2 main_v34 (Pipeline.mem_restRefs_of main_v34 (by decide) (by decide))).trans (tail_pos m c),
      ((h c).1 5).trans ((negFinal m c).trans (negMat_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Score

end
-- ==== Proof.LibRowGather.lean ====
/-
  Taking rows of a table: `stablehlo.gather` of a rank-2 operand `[N, D]` along axis 0 — what `table[idx]` lowers to for
  an integer array `idx` — read at an index.  The start indices carry a trailing unit axis (the index vector's); the
  result has the start indices' leading axes followed by the table's second axis.  Result position `(…, e)` reads the
  table at row "the start index at `…`, read SIGNED and CLAMPED into `[0, N - 1]`" and column `e`.
-/
import Idealize.ShloMosaic.PureOps.ShapeOps
import Idealize.ShloMosaic.Lib.ValueIdx

namespace Idealize.ShloMosaic.RowGather

open Idealize.ShloMosaic Idealize.ShloMosaic.ValueIdx

variable {α : Type}

/-- Start indices `[n, 1]`, result `[n, D]`: position `(p, e)` reads row `clamp (idx (p, 0))`, column `e`. -/
theorem gather_rows_apply {N D n w : ℕ} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1) (hN : 0 < N)
    (x : (⟨2, ![N, D]⟩ : Shape).Idx → α) (idx : IVec ⟨2, ![n, 1]⟩ w) (p : Fin n) (e : Fin D) :
    Host.gather d x idx (ix2 p e)
      = x (ix2 (⟨min (idx (ix2 p (0 : Fin 1))).toInt.toNat (N - 1), by omega⟩ : Fin N) e) := by
  unfold Host.gather
  congr 1
  funext a
  apply Fin.ext
  have hb : ∀ a : Fin 2, a ∉ d.operandBatchingDims := by intro a; rw [hob]; exact List.not_mem_nil
  -- every batch axis of the result is axis 0
  have hbat : ∀ X ∈ d.batchDims, ((ix2 p e : (⟨2, ![n, D]⟩ : Shape).Idx) X).val = p.val := by
    intro X hX
    have hX' : X ∉ d.offsetDims := by
      have := (List.mem_filter.1 hX).2
      simpa using this
    rw [hoff] at hX'
    match X with
    | ⟨0, _⟩ => rfl
    | ⟨1, _⟩ => exact absurd (List.mem_singleton.mpr rfl) hX'
  -- every offset axis of the result is axis 1
  have hoffm : ∀ X ∈ d.offsetDims, ((ix2 p e : (⟨2, ![n, D]⟩ : Shape).Idx) X).val = e.val := by
    intro X hX
    rw [hoff] at hX
    rw [List.mem_singleton.1 hX]; rfl
  match a with
  | ⟨0, _⟩ =>
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 p e) idx 0 + d.batchCoord (ix2 p e) 0 + d.offCoord (ix2 p e) 0
      = min (idx (ix2 p (0 : Fin 1))).toInt.toNat (N - 1)
    rw [GatherDims.batchCoord_eq_zero _ _ _ (hb 0), GatherDims.offCoord_eq_zero _ _ _ hk]
    simp only [Nat.add_zero]
    unfold GatherDims.start
    rw [dif_pos hm]
    show min (idx _).toInt.toNat (N - d.sliceSizes 0) = min (idx (ix2 p (0 : Fin 1))).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      exact hbat _ (List.getElem_mem _)
    | ⟨1, _⟩ =>
      unfold GatherDims.siIdx
      rw [dif_pos (by rw [hivd])]
      apply Fin.ext
      show List.idxOf (0 : Fin 2) d.startIndexMap = 0
      rw [hsim]; simp
  | ⟨1, _⟩ =>
    -- axis 1 is an offset axis: not start-indexed, kept, and read at the result's offset coordinate
    have hk : (1 : Fin 2) ∈ d.sKept := by
      rw [GatherDims.mem_sKept, hcoll]
      exact ⟨by simp, hb 1⟩
    have hm : (1 : Fin 2) ∉ d.startIndexMap := by rw [hsim]; simp
    show d.start (ix2 p e) idx 1 + d.batchCoord (ix2 p e) 1 + d.offCoord (ix2 p e) 1 = e.val
    rw [GatherDims.batchCoord_eq_zero _ _ _ (hb 1)]
    unfold GatherDims.start GatherDims.offCoord
    rw [dif_neg hm, dif_pos hk]
    simp only [Nat.add_zero, Nat.zero_add]
    exact hoffm _ (List.getElem_mem _)

/-- Start indices `[a, b, 1]`, result `[a, b, D]`: position `(p, q, e)` reads row `clamp (idx (p, q, 0))`, column `e`. -/
theorem gather_rows3_apply {N D a b w : ℕ} (d : GatherDims ⟨2, ![N, D]⟩ ⟨3, ![a, b, 1]⟩ ⟨3, ![a, b, D]⟩)
    (hoff : d.offsetDims = [2]) (hcoll : d.collapsedSliceDims = [0]) (hob : d.operandBatchingDims = [])
    (hsim : d.startIndexMap = [0]) (hivd : d.indexVectorDim = 2) (hN : 0 < N)
    (x : (⟨2, ![N, D]⟩ : Shape).Idx → α) (idx : IVec ⟨3, ![a, b, 1]⟩ w) (p : Fin a) (q : Fin b) (e : Fin D) :
    Host.gather d x idx (ix3 p q e)
      = x (ix2 (⟨min (idx (ix3 p q (0 : Fin 1))).toInt.toNat (N - 1), by omega⟩ : Fin N) e) := by
  unfold Host.gather
  congr 1
  funext c
  apply Fin.ext
  have hb : ∀ c : Fin 2, c ∉ d.operandBatchingDims := by intro c; rw [hob]; exact List.not_mem_nil
  -- the result's batch axes are 0 and 1, and so are the start indices' axes off the index vector's
  have hbd : d.batchDims = [0, 1] := by
    show Shape.kept _ d.offsetDims = _
    rw [hoff]; rfl
  have hsk : d.siKept = [0, 1] := by
    show (List.finRange 3).filter (fun y => decide (y.val ≠ d.indexVectorDim)) = _
    rw [hivd]; rfl
  have hbat0 : ∀ (k : ℕ) (hk : k < d.batchDims.length), k = 0 →
      ((ix3 p q e : (⟨3, ![a, b, D]⟩ : Shape).Idx) (d.batchDims[k]'hk)).val = p.val := by
    intro k hk hk0; subst hk0
    rw [List.getElem_of_eq hbd hk]; rfl
  have hbat1 : ∀ (k : ℕ) (hk : k < d.batchDims.length), k = 1 →
      ((ix3 p q e : (⟨3, ![a, b, D]⟩ : Shape).Idx) (d.batchDims[k]'hk)).val = q.val := by
    intro k hk hk1; subst hk1
    rw [List.getElem_of_eq hbd hk]; rfl
  -- every offset axis of the result is axis 2
  have hoffm : ∀ X ∈ d.offsetDims, ((ix3 p q e : (⟨3, ![a, b, D]⟩ : Shape).Idx) X).val = e.val := by
    intro X hX
    rw [hoff] at hX
    rw [List.mem_singleton.1 hX]; rfl
  match c with
  | ⟨0, _⟩ =>
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix3 p q e) idx 0 + d.batchCoord (ix3 p q e) 0 + d.offCoord (ix3 p q e) 0
      = min (idx (ix3 p q (0 : Fin 1))).toInt.toNat (N - 1)
    rw [GatherDims.batchCoord_eq_zero _ _ _ (hb 0), GatherDims.offCoord_eq_zero _ _ _ hk]
    simp only [Nat.add_zero]
    unfold GatherDims.start
    rw [dif_pos hm]
    show min (idx _).toInt.toNat (N - d.sliceSizes 0) = min (idx (ix3 p q (0 : Fin 1))).toInt.toNat (N - 1)
    rw [hsl]
    congr 3
    congr 1
    funext y
    match y with
    | ⟨0, _⟩ =>
      unfold GatherDims.siIdx
      rw [dif_neg (by rw [hivd]; simp)]
      unfold GatherDims.siCoord
      apply Fin.ext
      simp only [Fin.val_cast]
      exact hbat0 _ _ (by rw [hsk]; rfl)
    | ⟨1, _⟩ =>
      unfold GatherDims.siIdx
      rw [dif_neg (by rw [hivd]; simp)]
      unfold GatherDims.siCoord
      apply Fin.ext
      simp only [Fin.val_cast]
      exact hbat1 _ _ (by rw [hsk]; rfl)
    | ⟨2, _⟩ =>
      unfold GatherDims.siIdx
      rw [dif_pos (by rw [hivd])]
      apply Fin.ext
      show List.idxOf (0 : Fin 2) d.startIndexMap = 0
      rw [hsim]; simp
  | ⟨1, _⟩ =>
    -- axis 1 is an offset axis: not start-indexed, kept, and read at the result's offset coordinate
    have hk : (1 : Fin 2) ∈ d.sKept := by
      rw [GatherDims.mem_sKept, hcoll]
      exact ⟨by simp, hb 1⟩
    have hm : (1 : Fin 2) ∉ d.startIndexMap := by rw [hsim]; simp
    show d.start (ix3 p q e) idx 1 + d.batchCoord (ix3 p q e) 1 + d.offCoord (ix3 p q e) 1 = e.val
    rw [GatherDims.batchCoord_eq_zero _ _ _ (hb 1)]
    unfold GatherDims.start GatherDims.offCoord
    rw [dif_neg hm, dif_pos hk]
    simp only [Nat.add_zero, Nat.zero_add]
    exact hoffm _ (List.getElem_mem _)

end Idealize.ShloMosaic.RowGather
-- ==== Proof.KernelInputs.lean ====
/-
  The four arrays the kernel region is launched on, as functions of the program's arguments.

  Before the region the host program turns each array of index words into a gather of table rows: a word that is
  negative has the table's length added (compare with 0, add, select), the words are laid out as a column `[n, 1]`, and
  row `p` of the result is the table's row at word `p`, read signed and clamped into the table.  Read at an index
  `(p, e)` this is the scoring function's `entityRows` / `relationRows` / `negativeRows` at `(p, e)`: the head and tail
  rows of the entity table, the relation rows, and the rows of the first negative list.
-/
import proofs.«137559_j24197845745912_1_alg».proof.Proof.Gen.KernelIdeal.Frame
import proofs.«137559_j24197845745912_1_alg».proof.Proof.Spec
import proofs.«137559_j24197845745912_1_alg».proof.Proof.LibRowGather
import Idealize.ShloMosaic.Lib.ValueIdx
import Idealize.ShloMosaic.Lib.Pipeline.Value
import Idealize.ShloMosaic.Lib.StableHlo.Run

noncomputable section

namespace Cert.KernelIdeal.Score

open Cert.KernelIdeal Cert.KernelIdeal.Gen Idealize.ShloMosaic Idealize.ShloMosaic.TcCoe Idealize.ShloMosaic.ValueIdx
open Idealize.SL.Sem Cert.Score

variable (m : (ℓ : Loc nD τ sig) → Buf (Elt Ideal) ℓ)

/-! ## The host operations read at an index -/

/-- A table row gathered at position `(p, e)` when the start index there is the word `wd`: row `rowOf wd`, column `e`. -/
theorem gather_rowOf {N D n : ℕ} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1) (hN : 0 < N)
    (x : (⟨2, ![N, D]⟩ : Shape).Idx → EReal) (idx : IVec ⟨2, ![n, 1]⟩ 32) (wd : BitVec 32) (p : Fin n) (e : Fin D)
    (h : idx (ix2 p (0 : Fin 1)) = wd) :
    Host.gather d x idx (ix2 p e) = x (ix2 (rowOf N hN wd) e) := by
  subst h
  rw [RowGather.gather_rows_apply d hoff hcoll hob hsim hivd hN x idx p e]
  rfl

/-- The column of wrapped index words read at row `p`: the word at `p` with the table's length added when negative. -/
theorem wrapped_apply {n : ℕ} (h0 : S_.BroadcastsInDim (⟨1, ![n]⟩ : Shape) (![] : Fin 0 → Fin 1))
    (h1 : (⟨1, ![n]⟩ : Shape).BroadcastsInDim (⟨2, ![n, 1]⟩ : Shape) (![0] : Fin 1 → Fin 2))
    (w : IVec ⟨1, ![n]⟩ 32) (len : BitVec 32) (p : Fin n) :
    broadcastInDim (⟨2, ![n, 1]⟩ : Shape) ![0] h1
      (select (cmpi .slt w (broadcastInDim (⟨1, ![n]⟩ : Shape) ![] h0 (constantI S_ 32 0#32)))
        (addi w (broadcastInDim (⟨1, ![n]⟩ : Shape) ![] h0 (constantI S_ 32 len))) w) (ix2 p (0 : Fin 1))
      = wrapWord len (w (ix1 p)) := by
  rw [broadcastInDim_apply _ h1 _ (ix2 p (0 : Fin 1)) (ix1 p) (fun a => match a with
    | ⟨0, _⟩ => by
      show p.val = if n = 1 then 0 else p.val
      have := p.isLt
      split <;> omega)]
  show Scalar.select (IntOp.cmpi .slt (w (ix1 p)) (broadcastInDim (⟨1, ![n]⟩ : Shape) ![] h0 (constantI S_ 32 0#32) (ix1 p)))
      (IntOp.addi (w (ix1 p)) (broadcastInDim (⟨1, ![n]⟩ : Shape) ![] h0 (constantI S_ 32 len) (ix1 p))) (w (ix1 p)) = _
  rw [broadcastInDim_apply _ h0 (constantI S_ 32 0#32) (ix1 p) ix0 (fun a => a.elim0),
    broadcastInDim_apply _ h0 (constantI S_ 32 len) (ix1 p) ix0 (fun a => a.elim0)]
  rfl

/-- The flattened 4 x 512 index array read at `p`: the word of triple `p`. -/
theorem flat_apply (a : IVec S4x512 32) (p : Fin 2048) :
    shapeCast S2048 a Facts₀.shapeCasts_S4x512_S2048 (ix1 p) = a (tripleIdx p) := by
  refine shapeCast_apply a Facts₀.shapeCasts_S4x512_S2048 (ix1 p) (tripleIdx p) ?_
  rw [Shape.rowMajor_val_two, Shape.rowMajor_val_one]
  show p.val / 512 * 512 + p.val % 512 = p.val
  omega

/-- The first negative list, flattened, read at `q`. -/
theorem neg_flat_apply (a : IVec S4x1x1024 32) (q : Fin 1024) :
    shapeCast S1024 (extractStridedSlice S1x1x1024 ![0, 0, 0] a Facts₀.slices_S4x1x1024_S1x1x1024_0_0_0) Facts₀.shapeCasts_S1x1x1024_S1024 (ix1 q)
      = a (ix3 (0 : Fin 4) (0 : Fin 1) q) := by
  rw [shapeCast_apply _ Facts₀.shapeCasts_S1x1x1024_S1024 (ix1 q) (ix3 (0 : Fin 1) (0 : Fin 1) q) (by
    rw [Shape.rowMajor_val_three, Shape.rowMajor_val_one]
    show (0 * 1 + 0) * 1024 + q.val = q.val
    omega)]
  exact extractStridedSlice_apply ![0, 0, 0] a Facts₀.slices_S4x1x1024_S1x1x1024_0_0_0 (ix3 (0 : Fin 1) (0 : Fin 1) q)
    (ix3 (0 : Fin 4) (0 : Fin 1) q) (fun b => match b with
      | ⟨0, _⟩ => by show (0 : ℕ) = 0 + 0; rfl
      | ⟨1, _⟩ => by show (0 : ℕ) = 0 + 0; rfl
      | ⟨2, _⟩ => by show q.val = 0 + q.val; omega)

/-! ## The four arrays when the region is entered, as the host operations' terms -/

/-- The head rows as the host operations' term. -/
theorem head_term (c : Dev nD) :
    (V m c main_v11 : S2048x256.Idx → EReal) =
      Host.gather gather_S250000x256_S2048x1_S2048x256_1_0_n_n_0_1_1256 (m ((c : Thread nD τ).loc main_arg4))
        (broadcastInDim S2048x1 ![0] Facts₀.bcast_S2048_S2048x1_0
          (select (cmpi .slt (shapeCast S2048 (m ((c : Thread nD τ).loc main_arg0)) Facts₀.shapeCasts_S4x512_S2048)
                    (broadcastInDim S2048 ![] Facts₀.bcast_S_S2048 (constantI S_ 32 0#32)))
            (addi (shapeCast S2048 (m ((c : Thread nD τ).loc main_arg0)) Facts₀.shapeCasts_S4x512_S2048)
                    (broadcastInDim S2048 ![] Facts₀.bcast_S_S2048 (constantI S_ 32 250000#32)))
            (shapeCast S2048 (m ((c : Thread nD τ).loc main_arg0)) Facts₀.shapeCasts_S4x512_S2048))) := by
  show StableHlo.after hostOps0 (fun b => m (c, b)) (Proc.devRef .tc main_v11) = _
  after_results_simp
  rfl

/-- The relation rows as the host operations' term. -/
theorem rel_term (c : Dev nD) :
    (V m c main_v32 : S2048x256.Idx → EReal) =
      Host.gather gather_S1000x256_S2048x1_S2048x256_1_0_n_n_0_1_1256 (m ((c : Thread nD τ).loc main_arg5))
        (broadcastInDim S2048x1 ![0] Facts₀.bcast_S2048_S2048x1_0
          (select (cmpi .slt (shapeCast S2048 (m ((c : Thread nD τ).loc main_arg1)) Facts₀.shapeCasts_S4x512_S2048)
                    (broadcastInDim S2048 ![] Facts₀.bcast_S_S2048 (constantI S_ 32 0#32)))
            (addi (shapeCast S2048 (m ((c : Thread nD τ).loc main_arg1)) Facts₀.shapeCasts_S4x512_S2048)
                    (broadcastInDim S2048 ![] Facts₀.bcast_S_S2048 (constantI S_ 32 1000#32)))
            (shapeCast S2048 (m ((c : Thread nD τ).loc main_arg1)) Facts₀.shapeCasts_S4x512_S2048))) := by
  show StableHlo.after hostOps0 (fun b => m (c, b)) (Proc.devRef .tc main_v32) = _
  after_results_simp
  rfl

/-- The tail rows as the host operations' term. -/
theorem tail_term (c : Dev nD) :
    (V m c main_v18 : S2048x256.Idx → EReal) =
      Host.gather gather_S250000x256_S2048x1_S2048x256_1_0_n_n_0_1_1256 (m ((c : Thread nD τ).loc main_arg4))
        (broadcastInDim S2048x1 ![0] Facts₀.bcast_S2048_S2048x1_0
          (select (cmpi .slt (shapeCast S2048 (m ((c : Thread nD τ).loc main_arg2)) Facts₀.shapeCasts_S4x512_S2048)
                    (broadcastInDim S2048 ![] Facts₀.bcast_S_S2048 (constantI S_ 32 0#32)))
            (addi (shapeCast S2048 (m ((c : Thread nD τ).loc main_arg2)) Facts₀.shapeCasts_S4x512_S2048)
                    (broadcastInDim S2048 ![] Facts₀.bcast_S_S2048 (constantI S_ 32 250000#32)))
            (shapeCast S2048 (m ((c : Thread nD τ).loc main_arg2)) Facts₀.shapeCasts_S4x512_S2048))) := by
  show StableHlo.after hostOps0 (fun b => m (c, b)) (Proc.devRef .tc main_v18) = _
  after_results_simp
  rfl

/-- The negative rows as the host operations' term. -/
theorem neg_term (c : Dev nD) :
    (V m c main_v25 : S1024x256.Idx → EReal) =
      Host.gather gather_S250000x256_S1024x1_S1024x256_1_0_n_n_0_1_1256 (m ((c : Thread nD τ).loc main_arg4))
        (broadcastInDim S1024x1 ![0] Facts₀.bcast_S1024_S1024x1_0
          (select (cmpi .slt (shapeCast S1024 (extractStridedSlice S1x1x1024 ![0, 0, 0] (m ((c : Thread nD τ).loc main_arg3)) Facts₀.slices_S4x1x1024_S1x1x1024_0_0_0) Facts₀.shapeCasts_S1x1x1024_S1024)
                    (broadcastInDim S1024 ![] Facts₀.bcast_S_S1024 (constantI S_ 32 0#32)))
            (addi (shapeCast S1024 (extractStridedSlice S1x1x1024 ![0, 0, 0] (m ((c : Thread nD τ).loc main_arg3)) Facts₀.slices_S4x1x1024_S1x1x1024_0_0_0) Facts₀.shapeCasts_S1x1x1024_S1024)
                    (broadcastInDim S1024 ![] Facts₀.bcast_S_S1024 (constantI S_ 32 250000#32)))
            (shapeCast S1024 (extractStridedSlice S1x1x1024 ![0, 0, 0] (m ((c : Thread nD τ).loc main_arg3)) Facts₀.slices_S4x1x1024_S1x1x1024_0_0_0) Facts₀.shapeCasts_S1x1x1024_S1024))) := by
  show StableHlo.after hostOps0 (fun b => m (c, b)) (Proc.devRef .tc main_v25) = _
  after_results_simp
  rfl

/-! ## The four arrays when the region is entered, as the scoring function's rows -/

/-- The head rows: the entity table gathered at the head words. -/
theorem V_head (c : Dev nD) :
    V m c main_v11 = entityRows (m ((c : Thread nD τ).loc main_arg4)) (m ((c : Thread nD τ).loc main_arg0)) := by
  refine (head_term m c).trans ?_
  funext j
  obtain ⟨p, q, rfl⟩ : ∃ p q, j = ix2 p q := ⟨j 0, j 1, eq_ix2 j⟩
  exact gather_rowOf _ rfl rfl rfl rfl rfl (by omega) _ _ _ p q
    ((wrapped_apply Facts₀.bcast_S_S2048 Facts₀.bcast_S2048_S2048x1_0 _ 250000#32 p).trans
      (congrArg (wrapWord 250000#32) (flat_apply _ p)))

/-- The relation rows: the relation table gathered at the relation words. -/
theorem V_rel (c : Dev nD) :
    V m c main_v32 = relationRows (m ((c : Thread nD τ).loc main_arg5)) (m ((c : Thread nD τ).loc main_arg1)) := by
  refine (rel_term m c).trans ?_
  funext j
  obtain ⟨p, q, rfl⟩ : ∃ p q, j = ix2 p q := ⟨j 0, j 1, eq_ix2 j⟩
  exact gather_rowOf _ rfl rfl rfl rfl rfl (by omega) _ _ _ p q
    ((wrapped_apply Facts₀.bcast_S_S2048 Facts₀.bcast_S2048_S2048x1_0 _ 1000#32 p).trans
      (congrArg (wrapWord 1000#32) (flat_apply _ p)))

/-- The tail rows: the entity table gathered at the tail words. -/
theorem V_tail (c : Dev nD) :
    V m c main_v18 = entityRows (m ((c : Thread nD τ).loc main_arg4)) (m ((c : Thread nD τ).loc main_arg2)) := by
  refine (tail_term m c).trans ?_
  funext j
  obtain ⟨p, q, rfl⟩ : ∃ p q, j = ix2 p q := ⟨j 0, j 1, eq_ix2 j⟩
  exact gather_rowOf _ rfl rfl rfl rfl rfl (by omega) _ _ _ p q
    ((wrapped_apply Facts₀.bcast_S_S2048 Facts₀.bcast_S2048_S2048x1_0 _ 250000#32 p).trans
      (congrArg (wrapWord 250000#32) (flat_apply _ p)))

/-- The negative rows: the entity table gathered at the words of the first negative list. -/
theorem V_neg (c : Dev nD) :
    V m c main_v25 = negativeRows (m ((c : Thread nD τ).loc main_arg4)) (m ((c : Thread nD τ).loc main_arg3)) := by
  refine (neg_term m c).trans ?_
  funext j
  obtain ⟨p, q, rfl⟩ : ∃ p q, j = ix2 p q := ⟨j 0, j 1, eq_ix2 j⟩
  exact gather_rowOf _ rfl rfl rfl rfl rfl (by omega) _ _ _ p q
    ((wrapped_apply Facts₀.bcast_S_S1024 Facts₀.bcast_S1024_S1024x1_0 _ 250000#32 p).trans
      (congrArg (wrapWord 250000#32) (neg_flat_apply _ p)))

end Cert.KernelIdeal.Score

end
-- ==== Proof.RefScore.lean ====
/-
  The reference program's two results as the scoring function of the six argument arrays.

  The program joins the head, tail and negative index words along the second axis into one 4 x 2048 array, adds
  the table's length to the negative words, gathers the rows of the entity table once, and slices the three
  parts back out; the relation words go through the same correction and a gather of the relation table twice,
  once flattened to 2048 words and once repeated four times (8192 words).  Read index by index, the 2048 x 256
  arrays that enter the two products are the rows the scoring function names: the head rows, the relation rows
  and the tail rows of the 2048 triples, and the 1024 rows of the first negative list.  The positive score is
  then the sum over the embedding axis as stated; the negative score at column c = 1024 * a + n reads row
  2048 * a + i of the 8192-row product, which is triple i again, against negative n.
-/
import proofs.«137559_j24197845745912_1_alg».proof.Proof.Gen.ReferenceIdeal.Read
import proofs.«137559_j24197845745912_1_alg».proof.Proof.Spec
import proofs.«137559_j24197845745912_1_alg».proof.Proof.LibRowGather
import Idealize.ShloMosaic.Lib.ValueIdx
import Idealize.ShloMosaic.Lib.Pipeline.Value
import Idealize.ShloMosaic.PureOps.Ideal.Laws

noncomputable section

namespace Cert.ReferenceIdeal.Score

open Cert.ReferenceIdeal Cert.ReferenceIdeal.Gen Cert.ReferenceIdeal.Read Idealize.ShloMosaic Idealize.ShloMosaic.ValueIdx Cert.Score

section Stages

variable (x0 x1 x2 : (⟨S4x512, .i32⟩ : BufTy).Contents (Elt Ideal))
  (x3 : (⟨S4x1x1024, .i32⟩ : BufTy).Contents (Elt Ideal))
  (x4 : (⟨S250000x256, .f32⟩ : BufTy).Contents (Elt Ideal))
  (x5 : (⟨S1000x256, .f32⟩ : BufTy).Contents (Elt Ideal))

/-! ## The joined index words -/

/-- Columns below 512 of the joined array are the head words. -/
theorem joined_head (s : Fin 4) (p : Fin 512) :
    val_main_v1 (F := Ideal) x0 x2 x3 (ix2 s (⟨p.val, by omega⟩ : Fin 2048)) = x0 (ix2 s p) := by
  unfold val_main_v1
  refine concatenate_apply_piece (1 : Fin S4x2048.rank)
    [⟨S4x512, x0⟩, ⟨S4x512, x2⟩, ⟨S4x1024, val_main_v0 (F := Ideal) x3⟩] concatenates_S4x512_S4x512_S4x1024_S4x2048_d1 _
    0 (by show 0 < 3; decide) S4x512 x0 rfl rfl 0 rfl (ix2 s p) (fun b hb => ?_) (by show 0 + p.val = p.val; omega)
  match b with
  | ⟨0, _⟩ => rfl
  | ⟨1, _⟩ => exact absurd rfl hb

/-- Columns 512 to 1023 are the tail words. -/
theorem joined_tail (s : Fin 4) (p : Fin 512) :
    val_main_v1 (F := Ideal) x0 x2 x3 (ix2 s (⟨512 + p.val, by omega⟩ : Fin 2048)) = x2 (ix2 s p) := by
  unfold val_main_v1
  refine concatenate_apply_piece (1 : Fin S4x2048.rank)
    [⟨S4x512, x0⟩, ⟨S4x512, x2⟩, ⟨S4x1024, val_main_v0 (F := Ideal) x3⟩] concatenates_S4x512_S4x512_S4x1024_S4x2048_d1 _
    1 (by show 1 < 3; decide) S4x512 x2 rfl rfl 512 rfl (ix2 s p) (fun b hb => ?_) rfl
  match b with
  | ⟨0, _⟩ => rfl
  | ⟨1, _⟩ => exact absurd rfl hb

/-- Columns from 1024 on are the negative words of the same shard. -/
theorem joined_negative (s : Fin 4) (n : Fin 1024) :
    val_main_v1 (F := Ideal) x0 x2 x3 (ix2 s (⟨1024 + n.val, by omega⟩ : Fin 2048)) = x3 (ix3 s (0 : Fin 1) n) := by
  have e : val_main_v0 (F := Ideal) x3 (ix2 s n) = x3 (ix3 s (0 : Fin 1) n) := by
    rw [val_main_v0_apply]
    refine congrArg x3 (funext fun a => Fin.ext ?_)
    have hs := s.isLt
    have hn := n.isLt
    match a with
    | ⟨0, _⟩ => show (s.val * 1024 + n.val) / 1024 = s.val; omega
    | ⟨1, _⟩ => rfl
    | ⟨2, _⟩ => show (s.val * 1024 + n.val) % 1024 = n.val; omega
  rw [← e]
  unfold val_main_v1
  refine concatenate_apply_piece (1 : Fin S4x2048.rank)
    [⟨S4x512, x0⟩, ⟨S4x512, x2⟩, ⟨S4x1024, val_main_v0 (F := Ideal) x3⟩] concatenates_S4x512_S4x512_S4x1024_S4x2048_d1 _
    2 (by show 2 < 3; decide) S4x1024 (val_main_v0 (F := Ideal) x3) rfl rfl 1024 rfl (ix2 s n) (fun b hb => ?_) rfl
  match b with
  | ⟨0, _⟩ => rfl
  | ⟨1, _⟩ => exact absurd rfl hb

/-! ## The corrected index words -/

/-- An entity word of the joined array with the table's length added when it is negative. -/
theorem entity_word (i : S4x2048.Idx) :
    val_main_v6 (F := Ideal) x0 x2 x3 i = wrapWord 250000#32 (val_main_v1 (F := Ideal) x0 x2 x3 i) := by
  rw [val_main_v6_apply, val_main_v3_apply, val_main_v5_apply, val_main_v2_apply, val_main_v4_apply]
  rfl

/-- The same word with the index vector's unit axis appended. -/
theorem entity_start (s : Fin 4) (c : Fin 2048) :
    val_main_v7 (F := Ideal) x0 x2 x3 (ix3 s c (0 : Fin 1))
      = wrapWord 250000#32 (val_main_v1 (F := Ideal) x0 x2 x3 (ix2 s c)) := by
  have e7 : idx_main_v7 (ix3 s c (0 : Fin 1)) = ix2 s c := funext fun a => by
    match a with
    | ⟨0, _⟩ => rfl
    | ⟨1, _⟩ => rfl
  rw [val_main_v7_apply, e7, entity_word]

/-- The flattened relation words, corrected: word `i` is the relation word of triple `i`. -/
theorem relation_word (i : Fin 2048) :
    val_main_v39 (F := Ideal) x1 (ix1 i) = wrapWord 1000#32 (x1 (tripleIdx i)) := by
  rw [val_main_v39_apply, val_main_v36_apply, val_main_v38_apply, val_main_v35_apply, val_main_v37_apply,
    val_main_v34_apply]
  have e : idx_main_v34 (ix1 i) = tripleIdx i := funext fun a => by
    match a with
    | ⟨0, _⟩ => rfl
    | ⟨1, _⟩ => rfl
  rw [e]
  rfl

/-- The same word with the index vector's unit axis appended. -/
theorem relation_start (i : Fin 2048) :
    val_main_v40 (F := Ideal) x1 (ix2 i (0 : Fin 1)) = wrapWord 1000#32 (x1 (tripleIdx i)) := by
  have e40 : idx_main_v40 (ix2 i (0 : Fin 1)) = ix1 i := funext fun a => by
    match a with
    | ⟨0, _⟩ => rfl
  rw [val_main_v40_apply, e40, relation_word]

/-- The relation words repeated four times and flattened, corrected: word `r` is the relation word of triple
    `r mod 2048`. -/
theorem relation_word_rep (r : Fin 8192) :
    val_main_v24 (F := Ideal) x1 (ix1 r)
      = wrapWord 1000#32 (x1 (tripleIdx (⟨r.val % 2048, Nat.mod_lt _ (by decide)⟩ : Fin 2048))) := by
  rw [val_main_v24_apply, val_main_v21_apply, val_main_v23_apply, val_main_v20_apply, val_main_v22_apply,
    val_main_v19_apply, val_main_v16_apply]
  have e : idx_main_v16 (idx_main_v19 (ix1 r)) = tripleIdx (⟨r.val % 2048, Nat.mod_lt _ (by decide)⟩ : Fin 2048) :=
    funext fun a => Fin.ext (by
      have hr := r.isLt
      match a with
      | ⟨0, _⟩ => show r.val / 512 % 4 = r.val % 2048 / 512; omega
      | ⟨1, _⟩ => show r.val % 512 = r.val % 2048 % 512; omega)
  rw [e]
  rfl

/-- The same word with the index vector's unit axis appended. -/
theorem relation_start_rep (r : Fin 8192) :
    val_main_v25 (F := Ideal) x1 (ix2 r (0 : Fin 1))
      = wrapWord 1000#32 (x1 (tripleIdx (⟨r.val % 2048, Nat.mod_lt _ (by decide)⟩ : Fin 2048))) := by
  have e25 : idx_main_v25 (ix2 r (0 : Fin 1)) = ix1 r := funext fun a => by
    match a with
    | ⟨0, _⟩ => rfl
  rw [val_main_v25_apply, e25, relation_word_rep]

/-! ## The three gathers, with the row named by `rowOf` -/

/-- The gather of the entity table by a 4 x 2048 x 1 array of start indices. -/
theorem entity_gather (idx : IVec S4x2048x1 32) (s : Fin 4) (c : Fin 2048) (e : Fin 256) :
    Host.gather gather_S250000x256_S4x2048x1_S4x2048x256_2_0_n_n_0_2_1256 x4 idx (ix3 s c e)
      = x4 (ix2 (rowOf 250000 (by decide) (idx (ix3 s c (0 : Fin 1)))) e) :=
  RowGather.gather_rows3_apply _ rfl rfl rfl rfl rfl (by decide) x4 idx s c e

/-- The gather of the relation table by a 2048 x 1 array of start indices. -/
theorem relation_gather (idx : IVec S2048x1 32) (i : Fin 2048) (e : Fin 256) :
    Host.gather gather_S1000x256_S2048x1_S2048x256_1_0_n_n_0_1_1256 x5 idx (ix2 i e)
      = x5 (ix2 (rowOf 1000 (by decide) (idx (ix2 i (0 : Fin 1)))) e) :=
  RowGather.gather_rows_apply _ rfl rfl rfl rfl rfl (by decide) x5 idx i e

/-- The gather of the relation table by an 8192 x 1 array of start indices. -/
theorem relation_gather_rep (idx : IVec S8192x1 32) (r : Fin 8192) (e : Fin 256) :
    Host.gather gather_S1000x256_S8192x1_S8192x256_1_0_n_n_0_1_1256 x5 idx (ix2 r e)
      = x5 (ix2 (rowOf 1000 (by decide) (idx (ix2 r (0 : Fin 1)))) e) :=
  RowGather.gather_rows_apply _ rfl rfl rfl rfl rfl (by decide) x5 idx r e

/-! ## The gathered rows -/

/-- The one gather of the entity table: position `(s, c, e)` reads the row the corrected joined word at `(s, c)`
    names. -/
theorem gathered (s : Fin 4) (c : Fin 2048) (e : Fin 256) :
    val_main_v8 (F := Ideal) x0 x2 x3 x4 (ix3 s c e)
      = x4 (ix2 (rowOf 250000 (by decide) (wrapWord 250000#32 (val_main_v1 (F := Ideal) x0 x2 x3 (ix2 s c)))) e) := by
  unfold val_main_v8
  rw [entity_gather, entity_start]

/-- The head slice: the row the head word of `(s, p)` names. -/
theorem head_slice (s : Fin 4) (p : Fin 512) (e : Fin 256) :
    val_main_v9 (F := Ideal) x0 x2 x3 x4 (ix3 s p e)
      = x4 (ix2 (rowOf 250000 (by decide) (wrapWord 250000#32 (x0 (ix2 s p)))) e) := by
  have e9 : idx_main_v9 (ix3 s p e) = ix3 s (⟨p.val, by omega⟩ : Fin 2048) e := funext fun a => by
    match a with
    | ⟨0, _⟩ => rfl
    | ⟨1, _⟩ => rfl
    | ⟨2, _⟩ => rfl
  rw [val_main_v9_apply, e9, gathered, joined_head]

/-- The tail slice: the row the tail word of `(s, p)` names. -/
theorem tail_slice (s : Fin 4) (p : Fin 512) (e : Fin 256) :
    val_main_v10 (F := Ideal) x0 x2 x3 x4 (ix3 s p e)
      = x4 (ix2 (rowOf 250000 (by decide) (wrapWord 250000#32 (x2 (ix2 s p)))) e) := by
  have e10 : idx_main_v10 (ix3 s p e) = ix3 s (⟨512 + p.val, by omega⟩ : Fin 2048) e := funext fun a => by
    match a with
    | ⟨0, _⟩ => rfl
    | ⟨1, _⟩ => rfl
    | ⟨2, _⟩ => rfl
  rw [val_main_v10_apply, e10, gathered, joined_tail]

/-- The negative slice: the row the negative word `n` of shard `s` names. -/
theorem negative_slice (s : Fin 4) (n : Fin 1024) (e : Fin 256) :
    val_main_v11 (F := Ideal) x0 x2 x3 x4 (ix3 s n e)
      = x4 (ix2 (rowOf 250000 (by decide) (wrapWord 250000#32 (x3 (ix3 s (0 : Fin 1) n)))) e) := by
  have e11 : idx_main_v11 (ix3 s n e) = ix3 s (⟨1024 + n.val, by omega⟩ : Fin 2048) e := funext fun a => by
    match a with
    | ⟨0, _⟩ => rfl
    | ⟨1, _⟩ => rfl
    | ⟨2, _⟩ => rfl
  rw [val_main_v11_apply, e11, gathered, joined_negative]

/-! ## The arrays that enter the products -/

/-- Row `i` of a 4 x 512 x 256 array flattened to 2048 x 256 is its row `(i / 512, i mod 512)`. -/
theorem flat_idx (idx : S2048x256.Idx → S4x512x256.Idx)
    (h : ∀ j a, (idx j a).val = (match a with
      | ⟨0, _⟩ => ((j 0).val * 256 + (j 1).val) / 131072
      | ⟨1, _⟩ => ((j 0).val * 256 + (j 1).val) / 256 % 512
      | ⟨2, _⟩ => ((j 0).val * 256 + (j 1).val) % 256 : ℕ)) (i : Fin 2048) (e : Fin 256) :
    idx (ix2 i e) = ix3 (⟨i.val / 512, by omega⟩ : Fin 4) (⟨i.val % 512, Nat.mod_lt _ (by decide)⟩ : Fin 512) e := by
  have hi := i.isLt
  have he := e.isLt
  refine funext fun a => Fin.ext ?_
  rw [h]
  match a with
  | ⟨0, _⟩ => show (i.val * 256 + e.val) / 131072 = i.val / 512; omega
  | ⟨1, _⟩ => show (i.val * 256 + e.val) / 256 % 512 = i.val % 512; omega
  | ⟨2, _⟩ => show (i.val * 256 + e.val) % 256 = e.val; omega

/-- The head rows of the 2048 triples. -/
theorem head_rows : val_main_v33 (F := Ideal) x0 x2 x3 x4 = entityRows x4 x0 := by
  funext j
  obtain ⟨i, e, rfl⟩ : ∃ (i : Fin 2048) (e : Fin 256), j = ix2 i e := ⟨j 0, j 1, eq_ix2 j⟩
  have e33 := flat_idx idx_main_v33 (fun j a => by match a with | ⟨0, _⟩ => rfl | ⟨1, _⟩ => rfl | ⟨2, _⟩ => rfl) i e
  rw [val_main_v33_apply, e33, head_slice]
  rfl

/-- The tail rows of the 2048 triples. -/
theorem tail_rows : val_main_v42 (F := Ideal) x0 x2 x3 x4 = entityRows x4 x2 := by
  funext j
  obtain ⟨i, e, rfl⟩ : ∃ (i : Fin 2048) (e : Fin 256), j = ix2 i e := ⟨j 0, j 1, eq_ix2 j⟩
  have e42 := flat_idx idx_main_v42 (fun j a => by match a with | ⟨0, _⟩ => rfl | ⟨1, _⟩ => rfl | ⟨2, _⟩ => rfl) i e
  rw [val_main_v42_apply, e42, tail_slice]
  rfl

/-- The relation rows of the 2048 triples. -/
theorem relation_rows : val_main_v41 (F := Ideal) x1 x5 = relationRows x5 x1 := by
  funext j
  obtain ⟨i, e, rfl⟩ : ∃ (i : Fin 2048) (e : Fin 256), j = ix2 i e := ⟨j 0, j 1, eq_ix2 j⟩
  unfold val_main_v41
  rw [relation_gather, relation_start]
  rfl

/-- The rows of the first negative list. -/
theorem negative_rows : val_main_v27 (F := Ideal) x0 x2 x3 x4 = negativeRows x4 x3 := by
  funext j
  obtain ⟨n, e, rfl⟩ : ∃ (n : Fin 1024) (e : Fin 256), j = ix2 n e := ⟨j 0, j 1, eq_ix2 j⟩
  have hn := n.isLt
  have he := e.isLt
  have e27 : idx_main_v27 (ix2 n e) = ix4 (0 : Fin 1) (0 : Fin 1) n e := funext fun a => Fin.ext (by
    match a with
    | ⟨0, _⟩ => rfl
    | ⟨1, _⟩ => rfl
    | ⟨2, _⟩ => show (n.val * 256 + e.val) / 256 % 1024 = n.val; omega
    | ⟨3, _⟩ => show (n.val * 256 + e.val) % 256 = e.val; omega)
  have e15 : idx_main_v15 (ix4 (0 : Fin 1) (0 : Fin 1) n e) = ix3 (0 : Fin 1) n e := funext fun a => by
    match a with
    | ⟨0, _⟩ => rfl
    | ⟨1, _⟩ => rfl
    | ⟨2, _⟩ => rfl
  have e14 : idx_main_v14 (ix3 (0 : Fin 1) n e) = ix4 (0 : Fin 1) (0 : Fin 1) n e := funext fun a => Fin.ext (by
    match a with
    | ⟨0, _⟩ => rfl
    | ⟨1, _⟩ => rfl
    | ⟨2, _⟩ => show ((0 * 1024 + n.val) * 256 + e.val) / 256 % 1024 = n.val; omega
    | ⟨3, _⟩ => show ((0 * 1024 + n.val) * 256 + e.val) % 256 = e.val; omega)
  have e13 : idx_main_v13 (ix4 (0 : Fin 1) (0 : Fin 1) n e) = ix4 (0 : Fin 4) (0 : Fin 1) n e := funext fun a => by
    match a with
    | ⟨0, _⟩ => rfl
    | ⟨1, _⟩ => rfl
    | ⟨2, _⟩ => rfl
    | ⟨3, _⟩ => rfl
  have e12 : idx_main_v12 (ix4 (0 : Fin 4) (0 : Fin 1) n e) = ix3 (0 : Fin 4) n e := funext fun a => Fin.ext (by
    match a with
    | ⟨0, _⟩ => show (((0 * 1 + 0) * 1024 + n.val) * 256 + e.val) / 262144 = 0; omega
    | ⟨1, _⟩ => show (((0 * 1 + 0) * 1024 + n.val) * 256 + e.val) / 256 % 1024 = n.val; omega
    | ⟨2, _⟩ => show (((0 * 1 + 0) * 1024 + n.val) * 256 + e.val) % 256 = e.val; omega)
  rw [val_main_v27_apply, e27, val_main_v15_apply, e15, val_main_v14_apply, e14, val_main_v13_apply, e13,
    val_main_v12_apply, e12, negative_slice]
  rfl

/-- The head rows repeated four times: row `r` of the 8192 is the head row of triple `r mod 2048`. -/
theorem head_rows_rep (r : Fin 8192) (e : Fin 256) :
    val_main_v18 (F := Ideal) x0 x2 x3 x4 (ix2 r e)
      = entityRows x4 x0 (ix2 (⟨r.val % 2048, Nat.mod_lt _ (by decide)⟩ : Fin 2048) e) := by
  have hr := r.isLt
  have he := e.isLt
  have e18 : idx_main_v17 (idx_main_v18 (ix2 r e))
      = ix3 (⟨r.val % 2048 / 512, by omega⟩ : Fin 4) (⟨r.val % 2048 % 512, Nat.mod_lt _ (by decide)⟩ : Fin 512) e :=
    funext fun a => Fin.ext (by
      match a with
      | ⟨0, _⟩ => show (r.val * 256 + e.val) / 131072 % 4 = r.val % 2048 / 512; omega
      | ⟨1, _⟩ => show (r.val * 256 + e.val) / 256 % 512 = r.val % 2048 % 512; omega
      | ⟨2, _⟩ => show (r.val * 256 + e.val) % 256 = e.val; omega)
  rw [val_main_v18_apply, val_main_v17_apply, e18, head_slice]
  rfl

/-- The relation rows of the repeated words: row `r` of the 8192 is the relation row of triple `r mod 2048`. -/
theorem relation_rows_rep (r : Fin 8192) (e : Fin 256) :
    val_main_v26 (F := Ideal) x1 x5 (ix2 r e)
      = relationRows x5 x1 (ix2 (⟨r.val % 2048, Nat.mod_lt _ (by decide)⟩ : Fin 2048) e) := by
  unfold val_main_v26
  rw [relation_gather_rep, relation_start_rep]
  rfl

end Stages

/-! ## The positive scores -/

/-- The reference's first result is the positive score of the gathered rows. -/
theorem positive_eq (x0 x1 x2 : (⟨S4x512, .i32⟩ : BufTy).Contents (Elt Ideal))
    (x3 : (⟨S4x1x1024, .i32⟩ : BufTy).Contents (Elt Ideal)) (x4 : (⟨S250000x256, .f32⟩ : BufTy).Contents (Elt Ideal))
    (x5 : (⟨S1000x256, .f32⟩ : BufTy).Contents (Elt Ideal)) :
    val_main_v45 (F := Ideal) x0 x1 x2 x3 x4 x5
      = positive (entityRows x4 x0) (relationRows x5 x1) (entityRows x4 x2) := by
  funext i
  obtain ⟨t, rfl⟩ : ∃ t : Fin 2048, i = ix1 t := ⟨i 0, eq_ix1 i⟩
  have ek : ∀ k : Fin 256, idx_main_v45 (ix1 t) k = ix2 t k := fun k => funext fun a => by
    match a with
    | ⟨0, _⟩ => rfl
    | ⟨1, _⟩ => rfl
  rw [val_main_v45_apply, val_main_cst_apply]
  show Ideal.ofBits .f32 0x00000000#32 + _ = _
  rw [Ideal.ofBits_zero_f32, zero_add]
  refine Finset.sum_congr rfl fun k _ => ?_
  rw [ek, val_main_v44_apply, val_main_v43_apply, head_rows, tail_rows, relation_rows]
  rfl

/-! ## The negative scores -/

/-- Row `(a, i)` of the 8192-row product, read through the reshape and the transpose. -/
theorem product_idx (i : Fin 2048) (a : Fin 4) (n : Fin 1024) :
    idx_main_v30 (idx_main_v31 (ix3 i a n)) = ix2 (⟨2048 * a.val + i.val, by omega⟩ : Fin 8192) n := by
  have hi := i.isLt
  have ha := a.isLt
  have hn := n.isLt
  refine funext fun b => Fin.ext ?_
  match b with
  | ⟨0, _⟩ => show ((a.val * 2048 + i.val) * 1024 + n.val) / 1024 = 2048 * a.val + i.val; omega
  | ⟨1, _⟩ => show ((a.val * 2048 + i.val) * 1024 + n.val) % 1024 = n.val; omega

/-- The transposed product at `(i, a, n)`: triple `i` against negative `n`, whatever the column group `a`. -/
theorem negative_at (x0 x1 x2 : (⟨S4x512, .i32⟩ : BufTy).Contents (Elt Ideal))
    (x3 : (⟨S4x1x1024, .i32⟩ : BufTy).Contents (Elt Ideal)) (x4 : (⟨S250000x256, .f32⟩ : BufTy).Contents (Elt Ideal))
    (x5 : (⟨S1000x256, .f32⟩ : BufTy).Contents (Elt Ideal)) (i : Fin 2048) (a : Fin 4) (n : Fin 1024) :
    val_main_v31 (F := Ideal) x0 x1 x2 x3 x4 x5 (ix3 i a n)
      = ∑ e : Fin 256, (entityRows x4 x0 (ix2 i e) * relationRows x5 x1 (ix2 i e)) * negativeRows x4 x3 (ix2 n e) := by
  have hi := i.isLt
  have ha := a.isLt
  have hR : ∀ (r : Fin 8192), r.val % 2048 = i.val →
      (⟨r.val % 2048, Nat.mod_lt _ (by decide)⟩ : Fin 2048) = i := fun r h => Fin.ext h
  rw [val_main_v31_apply, val_main_v30_apply, product_idx, val_main_v29_apply]
  refine Finset.sum_congr rfl fun k _ => ?_
  have el : lidx_main_v29 (ix2 (⟨2048 * a.val + i.val, by omega⟩ : Fin 8192) n) k
      = ix2 (⟨2048 * a.val + i.val, by omega⟩ : Fin 8192) k := funext fun b => by
    match b with
    | ⟨0, _⟩ => rfl
    | ⟨1, _⟩ => rfl
  have er : ridx_main_v29 (ix2 (⟨2048 * a.val + i.val, by omega⟩ : Fin 8192) n) k = ix2 n k := funext fun b => by
    match b with
    | ⟨0, _⟩ => rfl
    | ⟨1, _⟩ => rfl
  rw [el, er, val_main_v28_apply, head_rows_rep, relation_rows_rep, negative_rows,
    hR _ (by show (2048 * a.val + i.val) % 2048 = i.val; omega)]
  rfl

/-- The reference's second result is the negative score of the gathered rows. -/
theorem negative_eq (x0 x1 x2 : (⟨S4x512, .i32⟩ : BufTy).Contents (Elt Ideal))
    (x3 : (⟨S4x1x1024, .i32⟩ : BufTy).Contents (Elt Ideal)) (x4 : (⟨S250000x256, .f32⟩ : BufTy).Contents (Elt Ideal))
    (x5 : (⟨S1000x256, .f32⟩ : BufTy).Contents (Elt Ideal)) :
    val_main_v32 (F := Ideal) x0 x1 x2 x3 x4 x5
      = negative (entityRows x4 x0) (relationRows x5 x1) (negativeRows x4 x3) := by
  funext j
  obtain ⟨i, c, rfl⟩ : ∃ (i : Fin 2048) (c : Fin 4096), j = ix2 i c := ⟨j 0, j 1, eq_ix2 j⟩
  have hi := i.isLt
  have hc := c.isLt
  have e32 : idx_main_v32 (ix2 i c)
      = ix3 i (⟨c.val / 1024, by omega⟩ : Fin 4) (⟨c.val % 1024, Nat.mod_lt _ (by decide)⟩ : Fin 1024) :=
    funext fun b => Fin.ext (by
      match b with
      | ⟨0, _⟩ => show (i.val * 4096 + c.val) / 4096 = i.val; omega
      | ⟨1, _⟩ => show (i.val * 4096 + c.val) / 1024 % 4 = c.val / 1024; omega
      | ⟨2, _⟩ => show (i.val * 4096 + c.val) % 1024 = c.val % 1024; omega)
  rw [val_main_v32_apply, e32, negative_at]
  rfl

end Cert.ReferenceIdeal.Score

end
-- ==== Proof.lean ====
/-
  DistMult scoring with shared negatives: a tiled kernel against its array-library reference, equal over the extended
  reals.

  Both programs turn four arrays of index words into rows of two embedding tables (a negative word has the table's
  length added, and the word is then clamped into the table) and compute, for triple `i` of the 4 x 512 batch flattened,
    positive i     = sum over e of (head i e * relation i e) * tail i e,
    negative i c   = sum over e of (head i e * relation i e) * shared_negative (c mod 1024) e       (c < 4096).
  The kernel gathers the head, relation, tail and negative rows with four separate gathers on the host, scores 256
  triples per grid point — a lane sum for the positive score, one matrix product with all 1024 negatives laid four times
  side by side for the negative scores — and flattens the column of positive scores.  The reference gathers head, tail
  and negatives in one fused gather and slices the pieces apart, replicates the head rows and relation words four times
  over a leading axis, takes one 8192 x 1024 product and routes it back by a reshape, a transposition and a reshape: the
  replica `a` of triple `i` lands in column group `a`, so every column group holds the same scores.  No law beyond
  re-indexing is needed: both sides are the same sums of the same products, so the finiteness of the inputs is never
  used.  The two frames of the kernel are its generated frame; the reference's frame is its run with the results dropped;
  the idealization rewrote nothing, so there is nothing to preserve.
-/
import proofs.«137559_j24197845745912_1_alg».proof.Defs
import proofs.«137559_j24197845745912_1_alg».proof.Proof.Gen.Kernel
import proofs.«137559_j24197845745912_1_alg».proof.Proof.Gen.Kernel.Frame
import proofs.«137559_j24197845745912_1_alg».proof.Proof.Gen.KernelIdeal
import proofs.«137559_j24197845745912_1_alg».proof.Proof.Gen.KernelIdeal.Frame
import proofs.«137559_j24197845745912_1_alg».proof.Proof.Gen.ReferenceIdeal
import proofs.«137559_j24197845745912_1_alg».proof.Proof.Gen.ReferenceIdeal.Run
import proofs.«137559_j24197845745912_1_alg».proof.Proof.Gen.ReferenceIdeal.Read
import proofs.«137559_j24197845745912_1_alg».proof.Proof.Gen.Pre_finite_inputs
import proofs.«137559_j24197845745912_1_alg».proof.Proof.KernelRun
import proofs.«137559_j24197845745912_1_alg».proof.Proof.KernelInputs
import proofs.«137559_j24197845745912_1_alg».proof.Proof.RefScore
import Idealize.ShloMosaic.Adequacy
import Idealize.ShloMosaic.Init

noncomputable section

namespace Cert.Proof

open Idealize.ShloMosaic Idealize.ShloMosaic.TcCoe Idealize.SL.Sem Cert.Score

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Both programs end with the positive and negative scores of the rows the index words name. -/
theorem algebraic : Cert.algebraic_KernelIdeal_ReferenceIdeal := by
  intro m ρ m' ρ' _ hagree
  refine ⟨fun c => positive
        (entityRows (m ((c.tc : Thread Cert.KernelIdeal.nD Cert.KernelIdeal.τ).loc Cert.KernelIdeal.main_arg4)) (m ((c.tc : Thread Cert.KernelIdeal.nD Cert.KernelIdeal.τ).loc Cert.KernelIdeal.main_arg0)))
        (relationRows (m ((c.tc : Thread Cert.KernelIdeal.nD Cert.KernelIdeal.τ).loc Cert.KernelIdeal.main_arg5)) (m ((c.tc : Thread Cert.KernelIdeal.nD Cert.KernelIdeal.τ).loc Cert.KernelIdeal.main_arg1)))
        (entityRows (m ((c.tc : Thread Cert.KernelIdeal.nD Cert.KernelIdeal.τ).loc Cert.KernelIdeal.main_arg4)) (m ((c.tc : Thread Cert.KernelIdeal.nD Cert.KernelIdeal.τ).loc Cert.KernelIdeal.main_arg2))),
      fun c => negative
        (entityRows (m ((c.tc : Thread Cert.KernelIdeal.nD Cert.KernelIdeal.τ).loc Cert.KernelIdeal.main_arg4)) (m ((c.tc : Thread Cert.KernelIdeal.nD Cert.KernelIdeal.τ).loc Cert.KernelIdeal.main_arg0)))
        (relationRows (m ((c.tc : Thread Cert.KernelIdeal.nD Cert.KernelIdeal.τ).loc Cert.KernelIdeal.main_arg5)) (m ((c.tc : Thread Cert.KernelIdeal.nD Cert.KernelIdeal.τ).loc Cert.KernelIdeal.main_arg1)))
        (negativeRows (m ((c.tc : Thread Cert.KernelIdeal.nD Cert.KernelIdeal.τ).loc Cert.KernelIdeal.main_arg4)) (m ((c.tc : Thread Cert.KernelIdeal.nD Cert.KernelIdeal.τ).loc Cert.KernelIdeal.main_arg3))),
      ?_, ?_⟩
  · refine (θ_run Cert.KernelIdeal.defs _ _).mono (fun r h c => ?_) (Cert.KernelIdeal.Score.run m ρ)
    obtain ⟨h1, h2, hrest⟩ := h c
    refine ⟨h1.trans ?_, h2.trans ?_, hrest⟩
    · show positive (Cert.KernelIdeal.Gen.V m c Cert.KernelIdeal.main_v11) (Cert.KernelIdeal.Gen.V m c Cert.KernelIdeal.main_v32) (Cert.KernelIdeal.Gen.V m c Cert.KernelIdeal.main_v18) = _
      rw [Cert.KernelIdeal.Score.V_head m c, Cert.KernelIdeal.Score.V_rel m c, Cert.KernelIdeal.Score.V_tail m c]
    · show negative (Cert.KernelIdeal.Gen.V m c Cert.KernelIdeal.main_v11) (Cert.KernelIdeal.Gen.V m c Cert.KernelIdeal.main_v32) (Cert.KernelIdeal.Gen.V m c Cert.KernelIdeal.main_v25) = _
      rw [Cert.KernelIdeal.Score.V_head m c, Cert.KernelIdeal.Score.V_rel m c, Cert.KernelIdeal.Score.V_neg m c]
  · refine (θ_run Cert.ReferenceIdeal.defs _ _).mono (fun r h c => ?_) (Cert.ReferenceIdeal.Value.run (F := Ideal) m' ρ')
    obtain ⟨h1, h2, hrest⟩ := h c
    obtain ⟨g0, g1, g2, g3, g4, g5⟩ := hagree c
    refine ⟨h1.trans ?_, h2.trans ?_, hrest⟩
    · rw [Cert.ReferenceIdeal.Read.val_main_v45_eq, Cert.ReferenceIdeal.Score.positive_eq, g0, g1, g2, g4, g5]
    · rw [Cert.ReferenceIdeal.Read.val_main_v32_eq, Cert.ReferenceIdeal.Score.negative_eq, g0, g1, g3, g4, g5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
